-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x64 : Shape := ⟨2, ![12288, 64]⟩
abbrev S64x64 : Shape := ⟨2, ![64, 64]⟩
abbrev S64 : Shape := ⟨1, ![64]⟩
abbrev S196608 : Shape := ⟨1, ![196608]⟩
abbrev S_ : Shape := ⟨0, ![]⟩

class Facts : Prop where
  bcast_S_S12288x64 : S_.BroadcastsInDim S12288x64 (![] : Fin 0 → Fin S12288x64.rank)
  reducesTo_S12288x64_S_d0_1 : S12288x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S12288x64 .f32) (main_arg1 : FVec F S64x64 .f32) (main_arg2 : FVec F S64 .f32) (main_arg3 : IVec S196608 32) (main_arg4 : IVec S196608 32) : IVec S_ 1 :=
  let main_v0 : FVec F S12288x64 .f32 := Host.absf main_arg0
  let main_cst : FVec F S_ .f32 := constant S_ .f32 0x7F800000#32
  let main_v1 : FVec F S12288x64 .f32 := broadcastInDim S12288x64 ![] bcast_S_S12288x64 main_cst
  let main_v2 : IVec S12288x64 1 := cmpf .olt main_v0 main_v1
  let main_c : IVec S_ 1 := constantI S_ 1 1#1
  let main_v3 : IVec S_ 1 := (fun x v => Host.reduce IntOp.andi x v reducesTo_S12288x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S12288x64 : Shape := ⟨2, ![12288, 64]⟩
abbrev S64x64 : Shape := ⟨2, ![64, 64]⟩
abbrev S64 : Shape := ⟨1, ![64]⟩
abbrev S196608 : Shape := ⟨1, ![196608]⟩
abbrev S_ : Shape := ⟨0, ![]⟩
abbrev S12288 : Shape := ⟨1, ![12288]⟩
abbrev S196608x1 : Shape := ⟨2, ![196608, 1]⟩
abbrev S12288x1 : Shape := ⟨2, ![12288, 1]⟩
abbrev S196608x64 : Shape := ⟨2, ![196608, 64]⟩
abbrev S1x64 : Shape := ⟨2, ![1, 64]⟩
abbrev S3072x64 : Shape := ⟨2, ![3072, 64]⟩
abbrev S12288x12288 : Shape := ⟨2, ![12288, 12288]⟩
abbrev S1536x64 : Shape := ⟨2, ![1536, 64]⟩
abbrev S1536x1536 : Shape := ⟨2, ![1536, 1536]⟩
abbrev S64x1536 : Shape := ⟨2, ![64, 1536]⟩

abbrev nBuf : Space → Nat
  | .hbm => 49
  | .vmem => 12
  | .smem => 0
  | _ => 0

abbrev bufTy : (tb : Table) → Fin (tcTables nBuf tb) → BufTy
  | .hbm, ⟨0, _⟩ => ⟨S12288x64, .f32⟩
  | .hbm, ⟨1, _⟩ => ⟨S64x64, .f32⟩
  | .hbm, ⟨2, _⟩ => ⟨S64, .f32⟩
  | .hbm, ⟨3, _⟩ => ⟨S196608, .i32⟩
  | .hbm, ⟨4, _⟩ => ⟨S196608, .i32⟩
  | .hbm, ⟨5, _⟩ => ⟨S_, .f32⟩
  | .hbm, ⟨6, _⟩ => ⟨S196608, .f32⟩
  | .hbm, ⟨7, _⟩ => ⟨S_, .f32⟩
  | .hbm, ⟨8, _⟩ => ⟨S12288, .f32⟩
  | .hbm, ⟨9, _⟩ => ⟨S196608x1, .i32⟩
  | .hbm, ⟨10, _⟩ => ⟨S12288, .f32⟩
  | .hbm, ⟨11, _⟩ => ⟨S_, .f32⟩
  | .hbm, ⟨12, _⟩ => ⟨S12288, .f32⟩
  | .hbm, ⟨13, _⟩ => ⟨S196608x1, .i32⟩
  | .hbm, ⟨14, _⟩ => ⟨S12288, .f32⟩
  | .hbm, ⟨15, _⟩ => ⟨S_, .f32⟩
  | .hbm, ⟨16, _⟩ => ⟨S12288, .f32⟩
  | .hbm, ⟨17, _⟩ => ⟨S12288, .f32⟩
  | .hbm, ⟨18, _⟩ => ⟨S_, .f32⟩
  | .hbm, ⟨19, _⟩ => ⟨S12288, .f32⟩
  | .hbm, ⟨20, _⟩ => ⟨S12288, .f32⟩
  | .hbm, ⟨21, _⟩ => ⟨S_, .f32⟩
  | .hbm, ⟨22, _⟩ => ⟨S12288, .f32⟩
  | .hbm, ⟨23, _⟩ => ⟨S12288, .f32⟩
  | .hbm, ⟨24, _⟩ => ⟨S_, .f32⟩
  | .hbm, ⟨25, _⟩ => ⟨S12288, .f32⟩
  | .hbm, ⟨26, _⟩ => ⟨S12288, .f32⟩
  | .hbm, ⟨27, _⟩ => ⟨S12288x1, .f32⟩
  | .hbm, ⟨28, _⟩ => ⟨S12288x64, .f32⟩
  | .hbm, ⟨29, _⟩ => ⟨S12288x64, .f32⟩
  | .hbm, ⟨30, _⟩ => ⟨S_, .i32⟩
  | .hbm, ⟨31, _⟩ => ⟨S196608, .i32⟩
  | .hbm, ⟨32, _⟩ => ⟨S196608, .i1⟩
  | .hbm, ⟨33, _⟩ => ⟨S_, .i32⟩
  | .hbm, ⟨34, _⟩ => ⟨S196608, .i32⟩
  | .hbm, ⟨35, _⟩ => ⟨S196608, .i32⟩
  | .hbm, ⟨36, _⟩ => ⟨S196608, .i32⟩
  | .hbm, ⟨37, _⟩ => ⟨S196608x1, .i32⟩
  | .hbm, ⟨38, _⟩ => ⟨S196608x64, .f32⟩
  | .hbm, ⟨39, _⟩ => ⟨S_, .f32⟩
  | .hbm, ⟨40, _⟩ => ⟨S12288x64, .f32⟩
  | .hbm, ⟨41, _⟩ => ⟨S196608x1, .i32⟩
  | .hbm, ⟨42, _⟩ => ⟨S12288x64, .f32⟩
  | .hbm, ⟨43, _⟩ => ⟨S12288x1, .f32⟩
  | .hbm, ⟨44, _⟩ => ⟨S12288x64, .f32⟩
  | .hbm, ⟨45, _⟩ => ⟨S12288x64, .f32⟩
  | .hbm, ⟨46, _⟩ => ⟨S1x64, .f32⟩
  | .hbm, ⟨47, _⟩ => ⟨S12288x64, .f32⟩
  | .hbm, ⟨48, _⟩ => ⟨S12288x12288, .f32⟩
  | .local _ .vmem, ⟨0, _⟩ => ⟨S3072x64, .f32⟩
  | .local _ .vmem, ⟨1, _⟩ => ⟨S3072x64, .f32⟩
  | .local _ .vmem, ⟨2, _⟩ => ⟨S64x64, .f32⟩
  | .local _ .vmem, ⟨3, _⟩ => ⟨S1x64, .f32⟩
  | .local _ .vmem, ⟨4, _⟩ => ⟨S3072x64, .f32⟩
  | .local _ .vmem, ⟨5, _⟩ => ⟨S3072x64, .f32⟩
  | .local _ .vmem, ⟨6, _⟩ => ⟨S1536x64, .f32⟩
  | .local _ .vmem, ⟨7, _⟩ => ⟨S1536x64, .f32⟩
  | .local _ .vmem, ⟨8, _⟩ => ⟨S1536x64, .f32⟩
  | .local _ .vmem, ⟨9, _⟩ => ⟨S1536x64, .f32⟩
  | .local _ .vmem, ⟨10, _⟩ => ⟨S1536x1536, .f32⟩
  | .local _ .vmem, ⟨11, _⟩ => ⟨S1536x1536, .f32⟩
  | _, _ => ⟨S12288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3072x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1536x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1536x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1536x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S196608 : S_.BroadcastsInDim S196608 (![] : Fin 0 → Fin S196608.rank)
  bcast_S_S12288 : S_.BroadcastsInDim S12288 (![] : Fin 0 → Fin S12288.rank)
  bcast_S196608_S196608x1_0 : S196608.BroadcastsInDim S196608x1 (![0] : Fin 1 → Fin S196608x1.rank)
  bcast_S12288_S12288x1_0 : S12288.BroadcastsInDim S12288x1 (![0] : Fin 1 → Fin S12288x1.rank)
  bcast_S12288x1_S12288x64_0_1 : S12288x1.BroadcastsInDim S12288x64 (![0, 1] : Fin 2 → Fin S12288x64.rank)
  bcast_S_S12288x64 : S_.BroadcastsInDim S12288x64 (![] : Fin 0 → Fin S12288x64.rank)
  shapeCasts_S64_S1x64 : S64.ShapeCasts S1x64
  inb_S3072x64_S3072x64_0_0 : ∀ a, (![0, 0] : Fin 2 → Nat) a + S3072x64.size a ≤ S3072x64.size a
  h_S3072x64 : 0 < S3072x64.numel
  shapeCasts_S3072x64_S3072x64 : S3072x64.ShapeCasts S3072x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3072x64 : S1x64.Broadcasts S3072x64
  inb_S1536x64_S1536x64_0_0 : ∀ a, (![0, 0] : Fin 2 → Nat) a + S1536x64.size a ≤ S1536x64.size a
  h_S1536x64 : 0 < S1536x64.numel
  shapeCasts_S1536x64_S1536x64 : S1536x64.ShapeCasts S1536x64
  transposes_S1536x64_p1_0_S64x1536 : S1536x64.Transposes [1, 0] S64x1536
  inb_S1536x1536_S1536x1536_0_0 : ∀ a, (![0, 0] : Fin 2 → Nat) a + S1536x1536.size a ≤ S1536x1536.size a
  h_S1536x1536 : 0 < S1536x1536.numel
  scatter_S12288_S196608x1_S196608_n_0_0_1_wf : ScatterDims.WF S12288 S196608x1 S196608 [] [0] [0] 1
  gather_S12288x64_S196608x1_S196608x64_1_0_n_n_0_1_164_wf : GatherDims.WF S12288x64 S196608x1 S196608x64 [1] [0] [] [0] [] 1 ![1, 64]
  scatter_S12288x64_S196608x1_S196608x64_1_0_0_1_wf : ScatterDims.WF S12288x64 S196608x1 S196608x64 [1] [0] [0] 1
  dot_S3072x64_S64x64_S3072x64_1_0_0_1_n_n_wf : DotDims.WF S3072x64 S64x64 S3072x64 [1] [0] [0] [1] [] []
  dot_S1536x64_S64x1536_S1536x1536_1_0_0_1_n_n_wf : DotDims.WF S1536x64 S64x1536 S1536x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x64.size a ≤ S12288x64.size a
  hwx0_0 : ∀ i : grid0.Coords, EltTy.bits .f32 = 32 ∨ (Rect.block (s := S12288x64) S3072x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3072x64.size a ≤ S12288x64.size a
  hwx0_3 : ∀ i : grid0.Coords, EltTy.bits .f32 = 32 ∨ (Rect.block (s := S12288x64) S3072x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1536x64.size a ≤ S12288x64.size a
  hwx1_0 : ∀ i : grid1.Coords, EltTy.bits .f32 = 32 ∨ (Rect.block (s := S12288x64) S1536x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1536x64.size a ≤ S12288x64.size a
  hwx1_1 : ∀ i : grid1.Coords, EltTy.bits .f32 = 32 ∨ (Rect.block (s := S12288x64) S1536x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1536x1536.size a ≤ S12288x12288.size a
  hwx1_2 : ∀ i : grid1.Coords, EltTy.bits .f32 = 32 ∨ (Rect.block (s := S12288x12288) S1536x1536.size (cc1_transform_2 i) (hinb1_2 i)).WholeWords (EltTy.packing .f32)

variable [Facts₀]

def scatter_S12288_S196608x1_S196608_n_0_0_1 : ScatterDims S12288 S196608x1 S196608 where
  updateWindowDims := []
  insertedWindowDims := [0]
  scatterDimsToOperandDims := [0]
  indexVectorDim := 1
  wf := scatter_S12288_S196608x1_S196608_n_0_0_1_wf
def gather_S12288x64_S196608x1_S196608x64_1_0_n_n_0_1_164 : GatherDims S12288x64 S196608x1 S196608x64 where
  offsetDims := [1]
  collapsedSliceDims := [0]
  operandBatchingDims := []
  startIndicesBatchingDims := []
  startIndexMap := [0]
  indexVectorDim := 1
  sliceSizes := ![1, 64]
  wf := gather_S12288x64_S196608x1_S196608x64_1_0_n_n_0_1_164_wf
def scatter_S12288x64_S196608x1_S196608x64_1_0_0_1 : ScatterDims S12288x64 S196608x1 S196608x64 where
  updateWindowDims := [1]
  insertedWindowDims := [0]
  scatterDimsToOperandDims := [0]
  indexVectorDim := 1
  wf := scatter_S12288x64_S196608x1_S196608x64_1_0_0_1_wf
def dot_S3072x64_S64x64_S3072x64_1_0_0_1_n_n : DotDims S3072x64 S64x64 S3072x64 where
  lhsContracting := [1]
  rhsContracting := [0]
  lhsNonContracting := [0]
  rhsNonContracting := [1]
  lhsBatch := []
  rhsBatch := []
  wf := dot_S3072x64_S64x64_S3072x64_1_0_0_1_n_n_wf
def dot_S1536x64_S64x1536_S1536x1536_1_0_0_1_n_n : DotDims S1536x64 S64x1536 S1536x1536 where
  lhsContracting := [1]
  rhsContracting := [0]
  lhsNonContracting := [0]
  rhsNonContracting := [1]
  lhsBatch := []
  rhsBatch := []
  wf := dot_S1536x64_S64x1536_S1536x1536_1_0_0_1_n_n_wf

abbrev win0_0 : Pipeline.Window sig grid0 :=
  Pipeline.Window.ofSpec (Memref.whole main_v30) S3072x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S3072x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S1536x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1536x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1536x1536.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S12288x64 : Shape := ⟨2, ![12288, 64]⟩
abbrev S64x64 : Shape := ⟨2, ![64, 64]⟩
abbrev S64 : Shape := ⟨1, ![64]⟩
abbrev S196608 : Shape := ⟨1, ![196608]⟩
abbrev S_ : Shape := ⟨0, ![]⟩
abbrev S12288 : Shape := ⟨1, ![12288]⟩
abbrev S196608x1 : Shape := ⟨2, ![196608, 1]⟩
abbrev S12288x1 : Shape := ⟨2, ![12288, 1]⟩
abbrev S196608x64 : Shape := ⟨2, ![196608, 64]⟩
abbrev S1x64 : Shape := ⟨2, ![1, 64]⟩
abbrev S64x12288 : Shape := ⟨2, ![64, 12288]⟩
abbrev S12288x12288 : Shape := ⟨2, ![12288, 12288]⟩

abbrev nBuf : Space → Nat
  | .hbm => 55
  | .vmem => 0
  | .smem => 0
  | _ => 0

abbrev bufTy : (tb : Table) → Fin (tcTables nBuf tb) → BufTy
  | .hbm, ⟨0, _⟩ => ⟨S12288x64, .f32⟩
  | .hbm, ⟨1, _⟩ => ⟨S64x64, .f32⟩
  | .hbm, ⟨2, _⟩ => ⟨S64, .f32⟩
  | .hbm, ⟨3, _⟩ => ⟨S196608, .i32⟩
  | .hbm, ⟨4, _⟩ => ⟨S196608, .i32⟩
  | .hbm, ⟨5, _⟩ => ⟨S_, .f32⟩
  | .hbm, ⟨6, _⟩ => ⟨S196608, .f32⟩
  | .hbm, ⟨7, _⟩ => ⟨S_, .f32⟩
  | .hbm, ⟨8, _⟩ => ⟨S12288, .f32⟩
  | .hbm, ⟨9, _⟩ => ⟨S196608x1, .i32⟩
  | .hbm, ⟨10, _⟩ => ⟨S12288, .f32⟩
  | .hbm, ⟨11, _⟩ => ⟨S_, .f32⟩
  | .hbm, ⟨12, _⟩ => ⟨S12288, .f32⟩
  | .hbm, ⟨13, _⟩ => ⟨S196608x1, .i32⟩
  | .hbm, ⟨14, _⟩ => ⟨S12288, .f32⟩
  | .hbm, ⟨15, _⟩ => ⟨S_, .f32⟩
  | .hbm, ⟨16, _⟩ => ⟨S12288, .f32⟩
  | .hbm, ⟨17, _⟩ => ⟨S12288, .f32⟩
  | .hbm, ⟨18, _⟩ => ⟨S_, .f32⟩
  | .hbm, ⟨19, _⟩ => ⟨S12288, .f32⟩
  | .hbm, ⟨20, _⟩ => ⟨S12288, .f32⟩
  | .hbm, ⟨21, _⟩ => ⟨S_, .f32⟩
  | .hbm, ⟨22, _⟩ => ⟨S12288, .f32⟩
  | .hbm, ⟨23, _⟩ => ⟨S12288, .f32⟩
  | .hbm, ⟨24, _⟩ => ⟨S_, .f32⟩
  | .hbm, ⟨25, _⟩ => ⟨S12288, .f32⟩
  | .hbm, ⟨26, _⟩ => ⟨S12288, .f32⟩
  | .hbm, ⟨27, _⟩ => ⟨S12288x1, .f32⟩
  | .hbm, ⟨28, _⟩ => ⟨S12288x64, .f32⟩
  | .hbm, ⟨29, _⟩ => ⟨S12288x64, .f32⟩
  | .hbm, ⟨30, _⟩ => ⟨S_, .i32⟩
  | .hbm, ⟨31, _⟩ => ⟨S196608, .i32⟩
  | .hbm, ⟨32, _⟩ => ⟨S196608, .i1⟩
  | .hbm, ⟨33, _⟩ => ⟨S_, .i32⟩
  | .hbm, ⟨34, _⟩ => ⟨S196608, .i32⟩
  | .hbm, ⟨35, _⟩ => ⟨S196608, .i32⟩
  | .hbm, ⟨36, _⟩ => ⟨S196608, .i32⟩
  | .hbm, ⟨37, _⟩ => ⟨S196608x1, .i32⟩
  | .hbm, ⟨38, _⟩ => ⟨S196608x64, .f32⟩
  | .hbm, ⟨39, _⟩ => ⟨S_, .f32⟩
  | .hbm, ⟨40, _⟩ => ⟨S12288x64, .f32⟩
  | .hbm, ⟨41, _⟩ => ⟨S196608x1, .i32⟩
  | .hbm, ⟨42, _⟩ => ⟨S12288x64, .f32⟩
  | .hbm, ⟨43, _⟩ => ⟨S12288x1, .f32⟩
  | .hbm, ⟨44, _⟩ => ⟨S12288x64, .f32⟩
  | .hbm, ⟨45, _⟩ => ⟨S12288x64, .f32⟩
  | .hbm, ⟨46, _⟩ => ⟨S12288x64, .f32⟩
  | .hbm, ⟨47, _⟩ => ⟨S1x64, .f32⟩
  | .hbm, ⟨48, _⟩ => ⟨S12288x64, .f32⟩
  | .hbm, ⟨49, _⟩ => ⟨S12288x64, .f32⟩
  | .hbm, ⟨50, _⟩ => ⟨S_, .f32⟩
  | .hbm, ⟨51, _⟩ => ⟨S12288x64, .f32⟩
  | .hbm, ⟨52, _⟩ => ⟨S12288x64, .f32⟩
  | .hbm, ⟨53, _⟩ => ⟨S64x12288, .f32⟩
  | .hbm, ⟨54, _⟩ => ⟨S12288x12288, .f32⟩
  | _, _ => ⟨S12288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_cst : Ref sig .tc := ⟨.hbm, 50, rfl⟩
abbrev main_call0_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S_S196608 : S_.BroadcastsInDim S196608 (![] : Fin 0 → Fin S196608.rank)
  bcast_S_S12288 : S_.BroadcastsInDim S12288 (![] : Fin 0 → Fin S12288.rank)
  bcast_S196608_S196608x1_0 : S196608.BroadcastsInDim S196608x1 (![0] : Fin 1 → Fin S196608x1.rank)
  bcast_S12288_S12288x1_0 : S12288.BroadcastsInDim S12288x1 (![0] : Fin 1 → Fin S12288x1.rank)
  bcast_S12288x1_S12288x64_0_1 : S12288x1.BroadcastsInDim S12288x64 (![0, 1] : Fin 2 → Fin S12288x64.rank)
  bcast_S_S12288x64 : S_.BroadcastsInDim S12288x64 (![] : Fin 0 → Fin S12288x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  transposes_S12288x64_S64x12288_1_0 : S12288x64.Transposes [1, 0] S64x12288
  scatter_S12288_S196608x1_S196608_n_0_0_1_wf : ScatterDims.WF S12288 S196608x1 S196608 [] [0] [0] 1
  gather_S12288x64_S196608x1_S196608x64_1_0_n_n_0_1_164_wf : GatherDims.WF S12288x64 S196608x1 S196608x64 [1] [0] [] [0] [] 1 ![1, 64]
  scatter_S12288x64_S196608x1_S196608x64_1_0_0_1_wf : ScatterDims.WF S12288x64 S196608x1 S196608x64 [1] [0] [0] 1
  dot_S12288x64_S64x64_S12288x64_1_0_0_1_n_n_wf : DotDims.WF S12288x64 S64x64 S12288x64 [1] [0] [0] [1] [] []
  dot_S12288x64_S64x12288_S12288x12288_1_0_0_1_n_n_wf : DotDims.WF S12288x64 S64x12288 S12288x12288 [1] [0] [0] [1] [] []

variable [Facts₀]

def scatter_S12288_S196608x1_S196608_n_0_0_1 : ScatterDims S12288 S196608x1 S196608 where
  updateWindowDims := []
  insertedWindowDims := [0]
  scatterDimsToOperandDims := [0]
  indexVectorDim := 1
  wf := scatter_S12288_S196608x1_S196608_n_0_0_1_wf
def gather_S12288x64_S196608x1_S196608x64_1_0_n_n_0_1_164 : GatherDims S12288x64 S196608x1 S196608x64 where
  offsetDims := [1]
  collapsedSliceDims := [0]
  operandBatchingDims := []
  startIndicesBatchingDims := []
  startIndexMap := [0]
  indexVectorDim := 1
  sliceSizes := ![1, 64]
  wf := gather_S12288x64_S196608x1_S196608x64_1_0_n_n_0_1_164_wf
def scatter_S12288x64_S196608x1_S196608x64_1_0_0_1 : ScatterDims S12288x64 S196608x1 S196608x64 where
  updateWindowDims := [1]
  insertedWindowDims := [0]
  scatterDimsToOperandDims := [0]
  indexVectorDim := 1
  wf := scatter_S12288x64_S196608x1_S196608x64_1_0_0_1_wf
def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf

class Facts : Prop extends Facts₀ where

variable [Facts]
-- ==== Proof.KLin.lean ====
/-
  The first kernel region: one row block of the dense layer at a grid point.

  At point `t` (of four) the body reads rows `[3072 t, 3072 (t+1))` of the aggregated features, the whole weight
  matrix and the bias row, and writes `max (A_blk · W + b) 0` over the whole of its output block. So what the body
  leaves in the output window's staging buffer is a closed function of the three input blocks (one store covering
  the block), and an input window's buffer holds its block at every point, refetched there or not.
  Stated for any float instance `F` and at any contents `V` the region is entered from.
-/
import proofs.«121747_j39032662786657_1_alg».proof.Proof.Gen.Kernel.Launch
import proofs.«121747_j39032662786657_1_alg».proof.Proof.Gen.Kernel.Skeleton
import proofs.«121747_j39032662786657_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds that block at every point: where it was not
    refetched the block index has not moved. One statement per input window (0: the row block, 1: the weights,
    2: the bias row). -/
theorem before_rows {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_weights {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_bias {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The body's accesses: each is the whole of its buffer. -/
abbrev rRows : Rect S3072x64 := Rect.unit (s := S3072x64) ![0, 0] S3072x64.size inb_S3072x64_S3072x64_0_0
abbrev rWts : Rect S64x64 := Rect.unit (s := S64x64) ![0, 0] S64x64.size inb_S64x64_S64x64_0_0
abbrev rBias : Rect S1x64 := Rect.unit (s := S1x64) ![0, 0] S1x64.size inb_S1x64_S1x64_0_0

/-- What the body leaves in the output window's buffer: its one store, the whole block at the payload. -/
def outBlk (x0 : Vec F S3072x64 .f32) (x1 : Vec F S64x64 .f32) (x2 : Vec F S1x64 .f32) : Vec F S3072x64 .f32 :=
  View.canon [⟨rRows, k0_pay1 (View.ld x0 rRows) (View.ld x1 rWts) (View.ld x2 rBias)⟩]

/-- The store covers the buffer. -/
theorem outCover (p0 : Vec F S3072x64 .f32) (y : S3072x64.Idx) :
    ∃ pc ∈ ([⟨rRows, p0⟩] : List (View.Piece (Elt F) S3072x64 .f32)), y ∈ pc.1.set :=
  View.cover_of_tiled [⟨rRows, p0⟩] S3072x64.size (by rfl) y

set_option maxHeartbeats 1000000 in
/-- The body on whole staging memrefs: the inputs at read contents `x0 x1 x2`, the output at anything, runs to the
    inputs as they were and the output at `outBlk` of them. -/
theorem sound_kernel (c : Dev nD) (E : Set ℕ) (i : grid0.Coords)
    (arg1 : Memref sig .tc .vmem S3072x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S3072x64 .f32) (harg4 : arg4.IsWhole)
    (x0 : Vec F S3072x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-- The region's proof data on core `c`: the arrays as the region finds them; after the body each input's buffer at
    its block and the output's at `outBlk` of the input blocks; between points only the scoped rest and the
    generator register, untouched; nothing owed; every array held whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outBlk (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]
theorem after_rows (c : Dev nD) (t : Fin cfg0.N) : (dat V c).after 0 t = blk V c 0 t := by dsimp only [dat]
theorem after_weights (c : Dev nD) (t : Fin cfg0.N) : (dat V c).after 1 t = blk V c 1 t := by dsimp only [dat]
theorem after_bias (c : Dev nD) (t : Fin cfg0.N) : (dat V c).after 2 t = blk V c 2 t := by dsimp only [dat]
theorem after_out (c : Dev nD) (t : Fin cfg0.N) :
    (dat V c).after 3 t = outBlk (blk V c 0 t) (blk V c 1 t) (blk V c 2 t) := by dsimp only [dat]

theorem before0 (c : Dev nD) (t : Fin cfg0.N) (d) : (dat V c).before 0 t d = blk V c 0 t :=
  before_rows V (dat V c) (A_eq V c 0) (after_rows V c) t d
theorem before1 (c : Dev nD) (t : Fin cfg0.N) (d) : (dat V c).before 1 t d = blk V c 1 t :=
  before_weights V (dat V c) (A_eq V c 1) (after_weights V c) t d
theorem before2 (c : Dev nD) (t : Fin cfg0.N) (d) : (dat V c).before 2 t d = blk V c 2 t :=
  before_bias V (dat V c) (A_eq V c 2) (after_bias V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).Φ t.succ = (dat V c).Φ t.castSucc from rfl,
    show (dat V c).owesAt () t.succ = (dat V c).owesAt () t.castSucc from rfl,
    after_rows, after_weights, after_bias, after_out]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Lin

end
-- ==== Proof.KGram.lean ====
/-
  The second kernel region: one tile of the Gram matrix at a grid point.

  At point `t = (i, j)` of the 8 × 8 grid the body reads rows `[1536 i, 1536 (i+1))` and rows
  `[1536 j, 1536 (j+1))` of ONE array, the activations, through two input windows, and writes the product of the
  first block with the transpose of the second over the whole of its output tile. Both input windows read the same
  array, so the region holds that array at two half shares, one per window; the output array is held whole.
  Stated for any float instance `F` and at any contents `V` the region is entered from.
-/
import proofs.«121747_j39032662786657_1_alg».proof.Proof.Gen.Kernel.Launch
import proofs.«121747_j39032662786657_1_alg».proof.Proof.Gen.Kernel.Skeleton
import proofs.«121747_j39032662786657_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose body leaves its block in place holds that block at every point, refetched there or not
    (window 0 is refetched only when the grid's first coordinate moves). -/
theorem before_left {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_right {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The body's accesses: each is the whole of its buffer. -/
abbrev rIn : Rect S1536x64 := Rect.unit (s := S1536x64) ![0, 0] S1536x64.size inb_S1536x64_S1536x64_0_0
abbrev rTile : Rect S1536x1536 := Rect.unit (s := S1536x1536) ![0, 0] S1536x1536.size inb_S1536x1536_S1536x1536_0_0

/-- What the body leaves in the output window's buffer: its one store, the whole tile at the payload. -/
def outTile (x0 x1 : Vec F S1536x64 .f32) : Vec F S1536x1536 .f32 :=
  View.canon [⟨rTile, k1_pay1 (View.ld x0 rIn) (View.ld x1 rIn)⟩]

/-- The store covers the buffer. -/
theorem outCover (p0 : Vec F S1536x1536 .f32) (y : S1536x1536.Idx) :
    ∃ pc ∈ ([⟨rTile, p0⟩] : List (View.Piece (Elt F) S1536x1536 .f32)), y ∈ pc.1.set :=
  View.cover_of_tiled [⟨rTile, p0⟩] S1536x1536.size (by rfl) y

set_option maxHeartbeats 1000000 in
/-- The body on whole staging memrefs: the inputs at read contents `x0 x1`, the output at anything, runs to the
    inputs as they were and the output at `outTile` of them. -/
theorem sound_kernel (c : Dev nD) (E : Set ℕ) (i : grid1.Coords)
    (arg2 : Memref sig .tc .vmem S1536x64 .f32) (harg2 : arg2.IsWhole) (arg3 : Memref sig .tc .vmem S1536x64 .f32) (harg3 : arg3.IsWhole)
    (arg4 : Memref sig .tc .vmem S1536x1536 .f32) (harg4 : arg4.IsWhole)
    (x0 x1 : Vec F S1536x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (outTile x0 x1)) -∗ K ⟨⟩))
      ⊢ wp frame (wpE (defs₀ (F := F)) Variants.none c none) E (cc1__pairwise_matmul_kernel i arg2 harg2 arg3 harg3 arg4 harg4) K := by
  simp only [cc1__pairwise_matmul_kernel_eq_skeleton]; unfold cc1__pairwise_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-- The region's proof data on core `c`: the arrays as the region finds them; after the body each input's buffer at
    its block and the output's at `outTile` of the input blocks; between points only the scoped rest and the
    generator register; nothing owed; the activations held at a half share by each input window. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outTile (blk V c 0 t) (blk V c 1 t)
  Φ _ := Pipeline.ΦA spec1 c
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]
theorem after_left (c : Dev nD) (t : Fin cfg1.N) : (dat V c).after 0 t = blk V c 0 t := by dsimp only [dat]
theorem after_right (c : Dev nD) (t : Fin cfg1.N) : (dat V c).after 1 t = blk V c 1 t := by dsimp only [dat]
theorem after_out (c : Dev nD) (t : Fin cfg1.N) :
    (dat V c).after 2 t = outTile (blk V c 0 t) (blk V c 1 t) := by dsimp only [dat]

theorem share_left (c : Dev nD) : (dat V c).share 0 = fullShare.left := rfl
theorem share_right (c : Dev nD) : (dat V c).share 1 = fullShare.right := rfl
theorem share_out (c : Dev nD) : (dat V c).share 2 = fullShare := rfl

theorem before0 (c : Dev nD) (t : Fin cfg1.N) (d) : (dat V c).before 0 t d = blk V c 0 t :=
  before_left V (dat V c) (A_eq V c 0) (after_left V c) t d
theorem before1 (c : Dev nD) (t : Fin cfg1.N) (d) : (dat V c).before 1 t d = blk V c 1 t :=
  before_right V (dat V c) (A_eq V c 1) (after_right V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).Φ t.succ = (dat V c).Φ t.castSucc from rfl,
    show (dat V c).owesAt () t.succ = (dat V c).owesAt () t.castSucc from rfl,
    after_left, after_right, after_out]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W1, bigSep_W1]
  exact sound_body V c t

end Cert.Kernel.Gram

end
-- ==== Proof.KRun.lean ====
/-
  The program's run, segment by segment: the host stretch, the dense-layer region, the Gram-matrix region.

  Between segments a core holds every unscoped buffer at a known valuation: the launch contents; then the host
  stretch's results; then the same with the activations array at what the first region's write-backs leave; then
  the same with the result array at what the second region's write-backs leave. The first region's windows are
  on four distinct arrays, each held whole. The second region reads ONE array, the activations, through two
  input windows: at its entry the array's full share is split into two halves, one per window, and at its exit
  the halves, both still at the entry contents, are joined again. The run ends with the result array at the
  second region's final contents and every argument as launched. Stated for any float instance `F`.
-/
import proofs.«121747_j39032662786657_1_alg».proof.Proof.KLin
import proofs.«121747_j39032662786657_1_alg».proof.Proof.KGram
import proofs.«121747_j39032662786657_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 (c : Dev nD) : Valuation τ sig (Elt F) := fun b => m (c, b)
/-- After the host stretch (the first region's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- The activations array as the first region leaves it. -/
def linOut (c : Dev nD) : Buf (Elt F) ((c : Thread nD τ).loc main_v32) := (Lin.dat (V1 m) c).arrAt 3 cfg0.N
/-- After the first region (the second region's entry). -/
def W2 (c : Dev nD) : Valuation τ sig (Elt F) := Function.update (W1 m c) main_v32 (linOut m c)
abbrev V2 : (c : Dev nD) → (b : Ref sig .tc) → Buf (Elt F) ((c : Thread nD τ).loc b) := fun c b => W2 m c b
/-- The result array as the second region leaves it. -/
def gramOut (c : Dev nD) : Buf (Elt F) ((c : Thread nD τ).loc main_v33) := (Gram.dat (V2 m) c).arrAt 2 cfg1.N
/-- After the second region (the return). -/
def W3 (c : Dev nD) : Valuation τ sig (Elt F) := Function.update (W2 m c) main_v33 (gramOut m c)
abbrev V3 : (c : Dev nD) → (b : Ref sig .tc) → Buf (Elt F) ((c : Thread nD τ).loc b) := fun c b => W3 m c b

theorem W2_out (c : Dev nD) : W2 m c (Proc.devRef .tc main_v32) = linOut m c := by
  unfold W2; exact Function.update_self ..
theorem W2_of_ne (c : Dev nD) (b : Ref sig .tc) (hb : b ≠ main_v32) :
    W2 m c (Proc.devRef .tc b) = W1 m c (Proc.devRef .tc b) := by
  unfold W2
  exact Function.update_of_ne (StableHlo.devRef_ne_of_ne hb : (Proc.devRef .tc b : DevRef τ sig) ≠ Proc.devRef .tc main_v32) _ _
theorem W3_out (c : Dev nD) : W3 m c (Proc.devRef .tc main_v33) = gramOut m c := by
  unfold W3; exact Function.update_self ..
theorem W3_of_ne (c : Dev nD) (b : Ref sig .tc) (hb : b ≠ main_v33) :
    W3 m c (Proc.devRef .tc b) = W2 m c (Proc.devRef .tc b) := by
  unfold W3
  exact Function.update_of_ne (StableHlo.devRef_ne_of_ne hb : (Proc.devRef .tc b : DevRef τ sig) ≠ Proc.devRef .tc main_v33) _ _

/-- An argument is written by no host operation and by no region: it ends as launched. -/
theorem W3_arg (c : Dev nD) (b : Ref sig .tc) (h3 : b ≠ main_v33) (h2 : b ≠ main_v32) (h1 : b ∉ hostOps0_W) :
    W3 m c (Proc.devRef .tc b) = m ((c : Thread nD τ).loc b) :=
  (W3_of_ne m c b h3).trans <| (W2_of_ne m c b h2).trans <| (Gen.V1_of m c b h1).trans rfl

/-! ## The first region's arrays at its exit -/

theorem lin_exit (c : Dev nD) (w : Fin cfg0.W) : (Lin.dat (V1 m) c).arrAt w cfg0.N = V2 m c (Pipeline.arrRef spec0 w) :=
  match w with
  | ⟨0, _⟩ => (((Lin.dat (V1 m) c).arrAt_in 0 rfl _).trans (Lin.A_eq (V1 m) c 0)).trans (W2_of_ne m c main_v30 (by decide)).symm
  | ⟨1, _⟩ => (((Lin.dat (V1 m) c).arrAt_in 1 rfl _).trans (Lin.A_eq (V1 m) c 1)).trans (W2_of_ne m c main_arg1 (by decide)).symm
  | ⟨2, _⟩ => (((Lin.dat (V1 m) c).arrAt_in 2 rfl _).trans (Lin.A_eq (V1 m) c 2)).trans (W2_of_ne m c main_v31 (by decide)).symm
  | ⟨3, _⟩ => (W2_out m c).symm
theorem lin_rest (c : Dev nD) : ∀ b, b ∉ Finset.univ.image (Pipeline.arrRef spec0) → V2 m c b = V1 m c b :=
  fun b hb => W2_of_ne m c b fun e => hb (Finset.mem_image.mpr ⟨3, Finset.mem_univ _, e.symm⟩)

/-! ## The second region's arrays: one array behind two input windows -/

/-- The buffers behind the second region's windows are two: the activations and the result. -/
theorem gram_arrBufs (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v32) ↦{fullShare} V main_v32) ∗ (((c : Thread nD τ).loc main_v33) ↦{fullShare} V main_v33)) := by
  unfold Pipeline.arrBufs
  exact bigSep_eq_bigSepL_of_eq [main_v32, main_v33] (by decide) (by decide) _

/-- The region's arrays, window by window: the activations at a half share twice, the result whole. -/
theorem gram_arrays (c : Dev nD) (V : (c : Dev nD) → (b : Ref sig .tc) → Buf (Elt F) ((c : Thread nD τ).loc b))
    (G : (w : Fin cfg1.W) → Buf (Elt F) ((cfg1.win w).arr.view.loc (c : Thread nD τ))) :
    ((Gram.dat V c).arrays G : sProp 𝕄)
      = iprop((((c : Thread nD τ).loc main_v32) ↦{fullShare.left} G 0) ∗ (((c : Thread nD τ).loc main_v32) ↦{fullShare.right} G 1)
          ∗ (((c : Thread nD τ).loc main_v33) ↦{fullShare} G 2)) := by
  unfold Dat.arrays
  rw [bigSep_W1, (arr_whole1 0).set_eq_univ, (arr_whole1 2).set_eq_univ]
  rfl

/-- Entry: out of a core's unscoped buffers at the entry contents come the region's arrays, the activations'
    share halved, and the rest. -/
theorem gram_entry (c : Dev nD) :
    (unscopedBufs c (V2 m c) : sProp 𝕄)
      ⊢ iprop((Gram.dat (V2 m) c).arrays ((Gram.dat (V2 m) c).arrAt · 0) ∗ Pipeline.unscopedRest spec1 c (V2 m c)) := by
  rw [show (unscopedBufs c (V2 m c) : sProp 𝕄) = iprop(Pipeline.arrBufs spec1 c (V2 m c) ∗ Pipeline.unscopedRest spec1 c (V2 m c))
      from Pipeline.unscopedBufs_split₀ cfgs 1 winFacts₀1.arr_unscoped c (V2 m c), gram_arrBufs, gram_arrays]
  iintro ⟨⟨Ha, Hb⟩, Hrest⟩
  ihave Ha' := (pointsTo_share (PosShare.mem_left_op_right fullShare)).1 $$ Ha
  icases Ha' with ⟨Hl, Hr⟩
  isplitr [Hrest]
  · isplitl [Hl]; · iexact Hl
    isplitl [Hr]; · iexact Hr
    iexact Hb
  iexact Hrest

/-- Exit: the region's arrays at their final contents — the two halves of the activations as entered, the result as
    written — and the rest are the core's unscoped buffers at the exit contents. -/
theorem gram_exit (c : Dev nD) :
    iprop((Gram.dat (V2 m) c).arrays ((Gram.dat (V2 m) c).arrAt · cfg1.N) ∗ Pipeline.unscopedRest spec1 c (V2 m c))
      ⊢ (unscopedBufs c (V3 m c) : sProp 𝕄) := by
  rw [show (unscopedBufs c (V3 m c) : sProp 𝕄) = iprop(Pipeline.arrBufs spec1 c (V3 m c) ∗ Pipeline.unscopedRest spec1 c (V3 m c))
      from Pipeline.unscopedBufs_split₀ cfgs 1 winFacts₀1.arr_unscoped c (V3 m c), gram_arrBufs, gram_arrays]
  have h0 : (Gram.dat (V2 m) c).arrAt 0 cfg1.N = V3 m c main_v32 :=
    (((Gram.dat (V2 m) c).arrAt_in 0 rfl _).trans (Gram.A_eq (V2 m) c 0)).trans (W3_of_ne m c main_v32 (by decide)).symm
  have h1 : (Gram.dat (V2 m) c).arrAt 1 cfg1.N = V3 m c main_v32 :=
    (((Gram.dat (V2 m) c).arrAt_in 1 rfl _).trans (Gram.A_eq (V2 m) c 1)).trans (W3_of_ne m c main_v32 (by decide)).symm
  have h2 : (Gram.dat (V2 m) c).arrAt 2 cfg1.N = V3 m c main_v33 := (W3_out m c).symm
  have hrest : (Pipeline.unscopedRest (Ix := Unit) (Name := ℕ) (U := UR sig nD τ) (Lvl := ℕ) spec1 c (V2 m c) : sProp 𝕄)
      = Pipeline.unscopedRest spec1 c (V3 m c) := by
    unfold Pipeline.unscopedRest
    exact bigSep_congr fun b hb => by
      rw [show V3 m c b = V2 m c b from W3_of_ne m c b fun e =>
        (Finset.mem_sdiff.mp hb).2 (Finset.mem_image.mpr ⟨2, Finset.mem_univ _, e.symm⟩)]
  rw [h0, h1, h2, hrest]
  iintro ⟨⟨Hl, Hr, Hb⟩, Hrest⟩
  isplitr [Hrest]
  · isplitr [Hb]
    · iapply (pointsTo_share (PosShare.mem_left_op_right fullShare)).2
      isplitl [Hl]; · iexact Hl
      iexact Hr
    iexact Hb
  iexact Hrest

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Lin.dat (V1 m) c
  | ⟨1, _⟩ => fun c => Gram.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- The host stretch as a segment over the unscoped references from the launch contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The dense-layer region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (lin_exit m c) (lin_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The Gram-matrix region: entered from every unscoped buffer at `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Gram.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄)
        ⊢ iprop((pdats m 1 c).arrays ((pdats m 1 c).arrAt · 0) ∗ Pipeline.unscopedRest spec1 c (V2 m c)) := gram_entry m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs c (V3 m c) : sProp 𝕄) := gram_exit m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The segments and the launch -/

abbrev segs : List (Pipeline.Seg (pcfgs (F := F)) adm (pdats m) () defs₀ 𝒱₀ L lv) :=
  [ .host (hseg m), .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of the program terminates, nothing faulting, with
    the result array at what the second region's write-backs leave and every argument as launched. -/
theorem run : θ_run defs (onTc (τ := τ) (main (F := F))) ⟨m, fun _ => 0, ρ⟩ (fun r => ∀ c : Dev nD,
      r.2.mem ((c.tc : Thread nD τ).loc main_v33) = gramOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v33 (by decide))).trans (W3_out m c),
       (h c _ (mem_uc main_arg0 (by decide))).trans (W3_arg m c main_arg0 (by decide) (by decide) (by decide)),
       (h c _ (mem_uc main_arg1 (by decide))).trans (W3_arg m c main_arg1 (by decide) (by decide) (by decide)),
       (h c _ (mem_uc main_arg2 (by decide))).trans (W3_arg m c main_arg2 (by decide) (by decide) (by decide)),
       (h c _ (mem_uc main_arg3 (by decide))).trans (W3_arg m c main_arg3 (by decide) (by decide) (by decide)),
       (h c _ (mem_uc main_arg4 (by decide))).trans (W3_arg m c main_arg4 (by decide) (by decide) (by decide))⟩)

end Cert.Kernel.Run

end
-- ==== Proof.KiLin.lean ====
/-
  The first kernel region: one row block of the dense layer at a grid point.

  At point `t` (of four) the body reads rows `[3072 t, 3072 (t+1))` of the aggregated features, the whole weight
  matrix and the bias row, and writes `max (A_blk · W + b) 0` over the whole of its output block. So what the body
  leaves in the output window's staging buffer is a closed function of the three input blocks (one store covering
  the block), and an input window's buffer holds its block at every point, refetched there or not.
  Stated for any float instance `F` and at any contents `V` the region is entered from.
-/
import proofs.«121747_j39032662786657_1_alg».proof.Proof.Gen.KernelIdeal.Launch
import proofs.«121747_j39032662786657_1_alg».proof.Proof.Gen.KernelIdeal.Skeleton
import proofs.«121747_j39032662786657_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds that block at every point: where it was not
    refetched the block index has not moved. One statement per input window (0: the row block, 1: the weights,
    2: the bias row). -/
theorem before_rows {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_weights {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_bias {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The body's accesses: each is the whole of its buffer. -/
abbrev rRows : Rect S3072x64 := Rect.unit (s := S3072x64) ![0, 0] S3072x64.size inb_S3072x64_S3072x64_0_0
abbrev rWts : Rect S64x64 := Rect.unit (s := S64x64) ![0, 0] S64x64.size inb_S64x64_S64x64_0_0
abbrev rBias : Rect S1x64 := Rect.unit (s := S1x64) ![0, 0] S1x64.size inb_S1x64_S1x64_0_0

/-- What the body leaves in the output window's buffer: its one store, the whole block at the payload. -/
def outBlk (x0 : Vec F S3072x64 .f32) (x1 : Vec F S64x64 .f32) (x2 : Vec F S1x64 .f32) : Vec F S3072x64 .f32 :=
  View.canon [⟨rRows, k0_pay1 (View.ld x0 rRows) (View.ld x1 rWts) (View.ld x2 rBias)⟩]

/-- The store covers the buffer. -/
theorem outCover (p0 : Vec F S3072x64 .f32) (y : S3072x64.Idx) :
    ∃ pc ∈ ([⟨rRows, p0⟩] : List (View.Piece (Elt F) S3072x64 .f32)), y ∈ pc.1.set :=
  View.cover_of_tiled [⟨rRows, p0⟩] S3072x64.size (by rfl) y

set_option maxHeartbeats 1000000 in
/-- The body on whole staging memrefs: the inputs at read contents `x0 x1 x2`, the output at anything, runs to the
    inputs as they were and the output at `outBlk` of them. -/
theorem sound_kernel (c : Dev nD) (E : Set ℕ) (i : grid0.Coords)
    (arg1 : Memref sig .tc .vmem S3072x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S3072x64 .f32) (harg4 : arg4.IsWhole)
    (x0 : Vec F S3072x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-- The region's proof data on core `c`: the arrays as the region finds them; after the body each input's buffer at
    its block and the output's at `outBlk` of the input blocks; between points only the scoped rest and the
    generator register, untouched; nothing owed; every array held whole. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outBlk (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]
theorem after_rows (c : Dev nD) (t : Fin cfg0.N) : (dat V c).after 0 t = blk V c 0 t := by dsimp only [dat]
theorem after_weights (c : Dev nD) (t : Fin cfg0.N) : (dat V c).after 1 t = blk V c 1 t := by dsimp only [dat]
theorem after_bias (c : Dev nD) (t : Fin cfg0.N) : (dat V c).after 2 t = blk V c 2 t := by dsimp only [dat]
theorem after_out (c : Dev nD) (t : Fin cfg0.N) :
    (dat V c).after 3 t = outBlk (blk V c 0 t) (blk V c 1 t) (blk V c 2 t) := by dsimp only [dat]

theorem before0 (c : Dev nD) (t : Fin cfg0.N) (d) : (dat V c).before 0 t d = blk V c 0 t :=
  before_rows V (dat V c) (A_eq V c 0) (after_rows V c) t d
theorem before1 (c : Dev nD) (t : Fin cfg0.N) (d) : (dat V c).before 1 t d = blk V c 1 t :=
  before_weights V (dat V c) (A_eq V c 1) (after_weights V c) t d
theorem before2 (c : Dev nD) (t : Fin cfg0.N) (d) : (dat V c).before 2 t d = blk V c 2 t :=
  before_bias V (dat V c) (A_eq V c 2) (after_bias V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).Φ t.succ = (dat V c).Φ t.castSucc from rfl,
    show (dat V c).owesAt () t.succ = (dat V c).owesAt () t.castSucc from rfl,
    after_rows, after_weights, after_bias, after_out]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Lin

end
-- ==== Proof.KiGram.lean ====
/-
  The second kernel region: one tile of the Gram matrix at a grid point.

  At point `t = (i, j)` of the 8 × 8 grid the body reads rows `[1536 i, 1536 (i+1))` and rows
  `[1536 j, 1536 (j+1))` of ONE array, the activations, through two input windows, and writes the product of the
  first block with the transpose of the second over the whole of its output tile. Both input windows read the same
  array, so the region holds that array at two half shares, one per window; the output array is held whole.
  Stated for any float instance `F` and at any contents `V` the region is entered from.
-/
import proofs.«121747_j39032662786657_1_alg».proof.Proof.Gen.KernelIdeal.Launch
import proofs.«121747_j39032662786657_1_alg».proof.Proof.Gen.KernelIdeal.Skeleton
import proofs.«121747_j39032662786657_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gram

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose body leaves its block in place holds that block at every point, refetched there or not
    (window 0 is refetched only when the grid's first coordinate moves). -/
theorem before_left {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_right {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The body's accesses: each is the whole of its buffer. -/
abbrev rIn : Rect S1536x64 := Rect.unit (s := S1536x64) ![0, 0] S1536x64.size inb_S1536x64_S1536x64_0_0
abbrev rTile : Rect S1536x1536 := Rect.unit (s := S1536x1536) ![0, 0] S1536x1536.size inb_S1536x1536_S1536x1536_0_0

/-- What the body leaves in the output window's buffer: its one store, the whole tile at the payload. -/
def outTile (x0 x1 : Vec F S1536x64 .f32) : Vec F S1536x1536 .f32 :=
  View.canon [⟨rTile, k1_pay1 (View.ld x0 rIn) (View.ld x1 rIn)⟩]

/-- The store covers the buffer. -/
theorem outCover (p0 : Vec F S1536x1536 .f32) (y : S1536x1536.Idx) :
    ∃ pc ∈ ([⟨rTile, p0⟩] : List (View.Piece (Elt F) S1536x1536 .f32)), y ∈ pc.1.set :=
  View.cover_of_tiled [⟨rTile, p0⟩] S1536x1536.size (by rfl) y

set_option maxHeartbeats 1000000 in
/-- The body on whole staging memrefs: the inputs at read contents `x0 x1`, the output at anything, runs to the
    inputs as they were and the output at `outTile` of them. -/
theorem sound_kernel (c : Dev nD) (E : Set ℕ) (i : grid1.Coords)
    (arg2 : Memref sig .tc .vmem S1536x64 .f32) (harg2 : arg2.IsWhole) (arg3 : Memref sig .tc .vmem S1536x64 .f32) (harg3 : arg3.IsWhole)
    (arg4 : Memref sig .tc .vmem S1536x1536 .f32) (harg4 : arg4.IsWhole)
    (x0 x1 : Vec F S1536x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (outTile x0 x1)) -∗ K ⟨⟩))
      ⊢ wp frame (wpE (defs₀ (F := F)) Variants.none c none) E (cc1__pairwise_matmul_kernel i arg2 harg2 arg3 harg3 arg4 harg4) K := by
  simp only [cc1__pairwise_matmul_kernel_eq_skeleton]; unfold cc1__pairwise_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-- The region's proof data on core `c`: the arrays as the region finds them; after the body each input's buffer at
    its block and the output's at `outTile` of the input blocks; between points only the scoped rest and the
    generator register; nothing owed; the activations held at a half share by each input window. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outTile (blk V c 0 t) (blk V c 1 t)
  Φ _ := Pipeline.ΦA spec1 c
  q w := match w with
    | ⟨0, _⟩ => fullShare.left
    | ⟨1, _⟩ => fullShare.right
    | ⟨2, _⟩ => fullShare
  owed _ := 0

theorem A_eq (c : Dev nD) (w : Fin cfg1.W) : (dat V c).A w = V c (Pipeline.arrRef spec1 w) := by
  dsimp only [dat]
theorem after_left (c : Dev nD) (t : Fin cfg1.N) : (dat V c).after 0 t = blk V c 0 t := by dsimp only [dat]
theorem after_right (c : Dev nD) (t : Fin cfg1.N) : (dat V c).after 1 t = blk V c 1 t := by dsimp only [dat]
theorem after_out (c : Dev nD) (t : Fin cfg1.N) :
    (dat V c).after 2 t = outTile (blk V c 0 t) (blk V c 1 t) := by dsimp only [dat]

theorem share_left (c : Dev nD) : (dat V c).share 0 = fullShare.left := rfl
theorem share_right (c : Dev nD) : (dat V c).share 1 = fullShare.right := rfl
theorem share_out (c : Dev nD) : (dat V c).share 2 = fullShare := rfl

theorem before0 (c : Dev nD) (t : Fin cfg1.N) (d) : (dat V c).before 0 t d = blk V c 0 t :=
  before_left V (dat V c) (A_eq V c 0) (after_left V c) t d
theorem before1 (c : Dev nD) (t : Fin cfg1.N) (d) : (dat V c).before 1 t d = blk V c 1 t :=
  before_right V (dat V c) (A_eq V c 1) (after_right V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).Φ t.succ = (dat V c).Φ t.castSucc from rfl,
    show (dat V c).owesAt () t.succ = (dat V c).owesAt () t.castSucc from rfl,
    after_left, after_right, after_out]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W1, bigSep_W1]
  exact sound_body V c t

end Cert.KernelIdeal.Gram

end
-- ==== Proof.KiRun.lean ====
/-
  The program's run, segment by segment: the host stretch, the dense-layer region, the Gram-matrix region.

  Between segments a core holds every unscoped buffer at a known valuation: the launch contents; then the host
  stretch's results; then the same with the activations array at what the first region's write-backs leave; then
  the same with the result array at what the second region's write-backs leave. The first region's windows are
  on four distinct arrays, each held whole. The second region reads ONE array, the activations, through two
  input windows: at its entry the array's full share is split into two halves, one per window, and at its exit
  the halves, both still at the entry contents, are joined again. The run ends with the result array at the
  second region's final contents and every argument as launched. Stated for any float instance `F`.
-/
import proofs.«121747_j39032662786657_1_alg».proof.Proof.KiLin
import proofs.«121747_j39032662786657_1_alg».proof.Proof.KiGram
import proofs.«121747_j39032662786657_1_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 (c : Dev nD) : Valuation τ sig (Elt F) := fun b => m (c, b)
/-- After the host stretch (the first region's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- The activations array as the first region leaves it. -/
def linOut (c : Dev nD) : Buf (Elt F) ((c : Thread nD τ).loc main_v32) := (Lin.dat (V1 m) c).arrAt 3 cfg0.N
/-- After the first region (the second region's entry). -/
def W2 (c : Dev nD) : Valuation τ sig (Elt F) := Function.update (W1 m c) main_v32 (linOut m c)
abbrev V2 : (c : Dev nD) → (b : Ref sig .tc) → Buf (Elt F) ((c : Thread nD τ).loc b) := fun c b => W2 m c b
/-- The result array as the second region leaves it. -/
def gramOut (c : Dev nD) : Buf (Elt F) ((c : Thread nD τ).loc main_v33) := (Gram.dat (V2 m) c).arrAt 2 cfg1.N
/-- After the second region (the return). -/
def W3 (c : Dev nD) : Valuation τ sig (Elt F) := Function.update (W2 m c) main_v33 (gramOut m c)
abbrev V3 : (c : Dev nD) → (b : Ref sig .tc) → Buf (Elt F) ((c : Thread nD τ).loc b) := fun c b => W3 m c b

theorem W2_out (c : Dev nD) : W2 m c (Proc.devRef .tc main_v32) = linOut m c := by
  unfold W2; exact Function.update_self ..
theorem W2_of_ne (c : Dev nD) (b : Ref sig .tc) (hb : b ≠ main_v32) :
    W2 m c (Proc.devRef .tc b) = W1 m c (Proc.devRef .tc b) := by
  unfold W2
  exact Function.update_of_ne (StableHlo.devRef_ne_of_ne hb : (Proc.devRef .tc b : DevRef τ sig) ≠ Proc.devRef .tc main_v32) _ _
theorem W3_out (c : Dev nD) : W3 m c (Proc.devRef .tc main_v33) = gramOut m c := by
  unfold W3; exact Function.update_self ..
theorem W3_of_ne (c : Dev nD) (b : Ref sig .tc) (hb : b ≠ main_v33) :
    W3 m c (Proc.devRef .tc b) = W2 m c (Proc.devRef .tc b) := by
  unfold W3
  exact Function.update_of_ne (StableHlo.devRef_ne_of_ne hb : (Proc.devRef .tc b : DevRef τ sig) ≠ Proc.devRef .tc main_v33) _ _

/-- An argument is written by no host operation and by no region: it ends as launched. -/
theorem W3_arg (c : Dev nD) (b : Ref sig .tc) (h3 : b ≠ main_v33) (h2 : b ≠ main_v32) (h1 : b ∉ hostOps0_W) :
    W3 m c (Proc.devRef .tc b) = m ((c : Thread nD τ).loc b) :=
  (W3_of_ne m c b h3).trans <| (W2_of_ne m c b h2).trans <| (Gen.V1_of m c b h1).trans rfl

/-! ## The first region's arrays at its exit -/

theorem lin_exit (c : Dev nD) (w : Fin cfg0.W) : (Lin.dat (V1 m) c).arrAt w cfg0.N = V2 m c (Pipeline.arrRef spec0 w) :=
  match w with
  | ⟨0, _⟩ => (((Lin.dat (V1 m) c).arrAt_in 0 rfl _).trans (Lin.A_eq (V1 m) c 0)).trans (W2_of_ne m c main_v30 (by decide)).symm
  | ⟨1, _⟩ => (((Lin.dat (V1 m) c).arrAt_in 1 rfl _).trans (Lin.A_eq (V1 m) c 1)).trans (W2_of_ne m c main_arg1 (by decide)).symm
  | ⟨2, _⟩ => (((Lin.dat (V1 m) c).arrAt_in 2 rfl _).trans (Lin.A_eq (V1 m) c 2)).trans (W2_of_ne m c main_v31 (by decide)).symm
  | ⟨3, _⟩ => (W2_out m c).symm
theorem lin_rest (c : Dev nD) : ∀ b, b ∉ Finset.univ.image (Pipeline.arrRef spec0) → V2 m c b = V1 m c b :=
  fun b hb => W2_of_ne m c b fun e => hb (Finset.mem_image.mpr ⟨3, Finset.mem_univ _, e.symm⟩)

/-! ## The second region's arrays: one array behind two input windows -/

/-- The buffers behind the second region's windows are two: the activations and the result. -/
theorem gram_arrBufs (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v32) ↦{fullShare} V main_v32) ∗ (((c : Thread nD τ).loc main_v33) ↦{fullShare} V main_v33)) := by
  unfold Pipeline.arrBufs
  exact bigSep_eq_bigSepL_of_eq [main_v32, main_v33] (by decide) (by decide) _

/-- The region's arrays, window by window: the activations at a half share twice, the result whole. -/
theorem gram_arrays (c : Dev nD) (V : (c : Dev nD) → (b : Ref sig .tc) → Buf (Elt F) ((c : Thread nD τ).loc b))
    (G : (w : Fin cfg1.W) → Buf (Elt F) ((cfg1.win w).arr.view.loc (c : Thread nD τ))) :
    ((Gram.dat V c).arrays G : sProp 𝕄)
      = iprop((((c : Thread nD τ).loc main_v32) ↦{fullShare.left} G 0) ∗ (((c : Thread nD τ).loc main_v32) ↦{fullShare.right} G 1)
          ∗ (((c : Thread nD τ).loc main_v33) ↦{fullShare} G 2)) := by
  unfold Dat.arrays
  rw [bigSep_W1, (arr_whole1 0).set_eq_univ, (arr_whole1 2).set_eq_univ]
  rfl

/-- Entry: out of a core's unscoped buffers at the entry contents come the region's arrays, the activations'
    share halved, and the rest. -/
theorem gram_entry (c : Dev nD) :
    (unscopedBufs c (V2 m c) : sProp 𝕄)
      ⊢ iprop((Gram.dat (V2 m) c).arrays ((Gram.dat (V2 m) c).arrAt · 0) ∗ Pipeline.unscopedRest spec1 c (V2 m c)) := by
  rw [show (unscopedBufs c (V2 m c) : sProp 𝕄) = iprop(Pipeline.arrBufs spec1 c (V2 m c) ∗ Pipeline.unscopedRest spec1 c (V2 m c))
      from Pipeline.unscopedBufs_split₀ cfgs 1 winFacts₀1.arr_unscoped c (V2 m c), gram_arrBufs, gram_arrays]
  iintro ⟨⟨Ha, Hb⟩, Hrest⟩
  ihave Ha' := (pointsTo_share (PosShare.mem_left_op_right fullShare)).1 $$ Ha
  icases Ha' with ⟨Hl, Hr⟩
  isplitr [Hrest]
  · isplitl [Hl]; · iexact Hl
    isplitl [Hr]; · iexact Hr
    iexact Hb
  iexact Hrest

/-- Exit: the region's arrays at their final contents — the two halves of the activations as entered, the result as
    written — and the rest are the core's unscoped buffers at the exit contents. -/
theorem gram_exit (c : Dev nD) :
    iprop((Gram.dat (V2 m) c).arrays ((Gram.dat (V2 m) c).arrAt · cfg1.N) ∗ Pipeline.unscopedRest spec1 c (V2 m c))
      ⊢ (unscopedBufs c (V3 m c) : sProp 𝕄) := by
  rw [show (unscopedBufs c (V3 m c) : sProp 𝕄) = iprop(Pipeline.arrBufs spec1 c (V3 m c) ∗ Pipeline.unscopedRest spec1 c (V3 m c))
      from Pipeline.unscopedBufs_split₀ cfgs 1 winFacts₀1.arr_unscoped c (V3 m c), gram_arrBufs, gram_arrays]
  have h0 : (Gram.dat (V2 m) c).arrAt 0 cfg1.N = V3 m c main_v32 :=
    (((Gram.dat (V2 m) c).arrAt_in 0 rfl _).trans (Gram.A_eq (V2 m) c 0)).trans (W3_of_ne m c main_v32 (by decide)).symm
  have h1 : (Gram.dat (V2 m) c).arrAt 1 cfg1.N = V3 m c main_v32 :=
    (((Gram.dat (V2 m) c).arrAt_in 1 rfl _).trans (Gram.A_eq (V2 m) c 1)).trans (W3_of_ne m c main_v32 (by decide)).symm
  have h2 : (Gram.dat (V2 m) c).arrAt 2 cfg1.N = V3 m c main_v33 := (W3_out m c).symm
  have hrest : (Pipeline.unscopedRest (Ix := Unit) (Name := ℕ) (U := UR sig nD τ) (Lvl := ℕ) spec1 c (V2 m c) : sProp 𝕄)
      = Pipeline.unscopedRest spec1 c (V3 m c) := by
    unfold Pipeline.unscopedRest
    exact bigSep_congr fun b hb => by
      rw [show V3 m c b = V2 m c b from W3_of_ne m c b fun e =>
        (Finset.mem_sdiff.mp hb).2 (Finset.mem_image.mpr ⟨2, Finset.mem_univ _, e.symm⟩)]
  rw [h0, h1, h2, hrest]
  iintro ⟨⟨Hl, Hr, Hb⟩, Hrest⟩
  isplitr [Hrest]
  · isplitr [Hb]
    · iapply (pointsTo_share (PosShare.mem_left_op_right fullShare)).2
      isplitl [Hl]; · iexact Hl
      iexact Hr
    iexact Hb
  iexact Hrest

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Lin.dat (V1 m) c
  | ⟨1, _⟩ => fun c => Gram.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- The host stretch as a segment over the unscoped references from the launch contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The dense-layer region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (lin_exit m c) (lin_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The Gram-matrix region: entered from every unscoped buffer at `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Gram.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄)
        ⊢ iprop((pdats m 1 c).arrays ((pdats m 1 c).arrAt · 0) ∗ Pipeline.unscopedRest spec1 c (V2 m c)) := gram_entry m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs c (V3 m c) : sProp 𝕄) := gram_exit m c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The segments and the launch -/

abbrev segs : List (Pipeline.Seg (pcfgs (F := F)) adm (pdats m) () defs₀ 𝒱₀ L lv) :=
  [ .host (hseg m), .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of the program terminates, nothing faulting, with
    the result array at what the second region's write-backs leave and every argument as launched. -/
theorem run : θ_run defs (onTc (τ := τ) (main (F := F))) ⟨m, fun _ => 0, ρ⟩ (fun r => ∀ c : Dev nD,
      r.2.mem ((c.tc : Thread nD τ).loc main_v33) = gramOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v33 (by decide))).trans (W3_out m c),
       (h c _ (mem_uc main_arg0 (by decide))).trans (W3_arg m c main_arg0 (by decide) (by decide) (by decide)),
       (h c _ (mem_uc main_arg1 (by decide))).trans (W3_arg m c main_arg1 (by decide) (by decide) (by decide)),
       (h c _ (mem_uc main_arg2 (by decide))).trans (W3_arg m c main_arg2 (by decide) (by decide) (by decide)),
       (h c _ (mem_uc main_arg3 (by decide))).trans (W3_arg m c main_arg3 (by decide) (by decide) (by decide)),
       (h c _ (mem_uc main_arg4 (by decide))).trans (W3_arg m c main_arg4 (by decide) (by decide) (by decide))⟩)

end Cert.KernelIdeal.Run

end
-- ==== Proof.KiLinValue.lean ====
/-
  The value the first kernel region leaves: the dense layer, on the whole array.

  Over the extended reals the body's payload at row `p`, column `q` of its block is
  `max (Σ_k A_blk[p,k] · W[k,q] + b[0,q]) 0`: the two changes of float format are the identity, the matrix product
  into a zero accumulator is the plain sum over the contracted axis, the bias row is broadcast down the rows.
  Point `t` of the four reads rows `[3072 t, 3072 (t+1))` of `A` and writes the same rows of the result, the four row
  blocks tile the array, so the array ends at `dense A W b`, index by index.
-/
import proofs.«121747_j39032662786657_1_alg».proof.Proof.KiLin
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinValue

open Idealize.ShloMosaic Idealize.ShloMosaic.TcCoe
open Idealize.SL Idealize.SL.Sem
open Idealize.ShloMosaic.Pipeline (Dat Cfg Window)
open Cert.KernelIdeal Cert.KernelIdeal.Gen

/-! ## The specification -/

/-- Row `i 0` of the left operand at contraction index `k`. -/
abbrev rowK (i : S12288x64.Idx) (k : Fin 64) : S12288x64.Idx := fun a => match a with
  | ⟨0, _⟩ => ⟨(i 0).val, (i 0).isLt⟩
  | ⟨1, _⟩ => ⟨k.val, k.isLt⟩
/-- Column `i 1` of the weights at contraction index `k`. -/
abbrev kCol (i : S12288x64.Idx) (k : Fin 64) : S64x64.Idx := fun a => match a with
  | ⟨0, _⟩ => ⟨k.val, k.isLt⟩
  | ⟨1, _⟩ => ⟨(i 1).val, (i 1).isLt⟩
/-- The bias row at column `i 1`. -/
abbrev biasAt (i : S12288x64.Idx) : S1x64.Idx := fun a => match a with
  | ⟨0, _⟩ => ⟨0, Nat.one_pos⟩
  | ⟨1, _⟩ => ⟨(i 1).val, (i 1).isLt⟩

/-- The dense layer with its rectifier on whole arrays: `max (A · W + b) 0`, index by index. -/
def dense (A : (⟨S12288x64, .f32⟩ : BufTy).Contents (Elt Ideal)) (W : (⟨S64x64, .f32⟩ : BufTy).Contents (Elt Ideal))
    (b : (⟨S1x64, .f32⟩ : BufTy).Contents (Elt Ideal)) : (⟨S12288x64, .f32⟩ : BufTy).Contents (Elt Ideal) := fun i =>
  max ((∑ k : Fin 64, A (rowK i k) * W (kCol i k)) + b (biasAt i)) 0

/-! ## The payload at an index of the block -/

abbrev lrow (y : S3072x64.Idx) (k : Fin 64) : S3072x64.Idx := fun a => match a with
  | ⟨0, _⟩ => ⟨(y 0).val, (y 0).isLt⟩
  | ⟨1, _⟩ => ⟨k.val, k.isLt⟩
abbrev lcol (y : S3072x64.Idx) (k : Fin 64) : S64x64.Idx := fun a => match a with
  | ⟨0, _⟩ => ⟨k.val, k.isLt⟩
  | ⟨1, _⟩ => ⟨(y 1).val, (y 1).isLt⟩
abbrev lbias (y : S3072x64.Idx) : S1x64.Idx := fun a => match a with
  | ⟨0, _⟩ => ⟨0, Nat.one_pos⟩
  | ⟨1, _⟩ => ⟨(y 1).val, (y 1).isLt⟩

theorem lhs_blk_0 (i : S3072x64.Idx) (q : dot_S3072x64_S64x64_S3072x64_1_0_0_1_n_n.contr.Idx) :
    (dot_S3072x64_S64x64_S3072x64_1_0_0_1_n_n.lhsIdx i q 0).val = (i 0).val := by
  unfold DotDims.lhsIdx
  rw [dif_neg (show ¬(0 : Fin S3072x64.rank) ∈ dot_S3072x64_S64x64_S3072x64_1_0_0_1_n_n.lhsBatch by decide), dif_pos (show (0 : Fin S3072x64.rank) ∈ dot_S3072x64_S64x64_S3072x64_1_0_0_1_n_n.lhsNonContracting by decide)]
  rfl
theorem lhs_blk_1 (i : S3072x64.Idx) (q : dot_S3072x64_S64x64_S3072x64_1_0_0_1_n_n.contr.Idx) :
    (dot_S3072x64_S64x64_S3072x64_1_0_0_1_n_n.lhsIdx i q 1).val = (q ⟨0, by decide⟩).val :=
  dot_S3072x64_S64x64_S3072x64_1_0_0_1_n_n.lhsIdx_val_of_single rfl i q
theorem rhs_blk_0 (i : S3072x64.Idx) (q : dot_S3072x64_S64x64_S3072x64_1_0_0_1_n_n.contr.Idx) :
    (dot_S3072x64_S64x64_S3072x64_1_0_0_1_n_n.rhsIdx i q 0).val = (q ⟨0, by decide⟩).val :=
  dot_S3072x64_S64x64_S3072x64_1_0_0_1_n_n.rhsIdx_val_of_single rfl i q
theorem rhs_blk_1 (i : S3072x64.Idx) (q : dot_S3072x64_S64x64_S3072x64_1_0_0_1_n_n.contr.Idx) :
    (dot_S3072x64_S64x64_S3072x64_1_0_0_1_n_n.rhsIdx i q 1).val = (i 1).val := by
  unfold DotDims.rhsIdx
  rw [dif_neg (show ¬(1 : Fin S64x64.rank) ∈ dot_S3072x64_S64x64_S3072x64_1_0_0_1_n_n.rhsBatch by decide), dif_pos (show (1 : Fin S64x64.rank) ∈ dot_S3072x64_S64x64_S3072x64_1_0_0_1_n_n.rhsNonContracting by decide)]
  rfl

/-- The block product at an index: the sum over the contracted axis. -/
theorem blk_matmul_apply (l : FVec Ideal S3072x64 .bf16) (r : FVec Ideal S64x64 .bf16) (y : S3072x64.Idx) :
    matmul (F := Ideal) dot_S3072x64_S64x64_S3072x64_1_0_0_1_n_n none l r (constant S3072x64 .f32 0x00000000#32) y
      = ∑ k : Fin 64, l (lrow y k) * r (lcol y k) := by
  simp only [matmul]
  rw [Ideal.matmul_constant_zero_apply, ← Equiv.sum_comp (ValueIdx.contrEquiv1 dot_S3072x64_S64x64_S3072x64_1_0_0_1_n_n 64 rfl rfl).symm]
  refine Finset.sum_congr rfl fun k _ => ?_
  have hk := ValueIdx.contrEquiv1_symm_val dot_S3072x64_S64x64_S3072x64_1_0_0_1_n_n 64 rfl rfl k
  have el : dot_S3072x64_S64x64_S3072x64_1_0_0_1_n_n.lhsIdx y ((ValueIdx.contrEquiv1 dot_S3072x64_S64x64_S3072x64_1_0_0_1_n_n 64 rfl rfl).symm k) = lrow y k := funext fun a => Fin.ext (by
    match a with
    | ⟨0, _⟩ => exact lhs_blk_0 _ _
    | ⟨1, _⟩ => exact (lhs_blk_1 _ _).trans hk)
  have er : dot_S3072x64_S64x64_S3072x64_1_0_0_1_n_n.rhsIdx y ((ValueIdx.contrEquiv1 dot_S3072x64_S64x64_S3072x64_1_0_0_1_n_n 64 rfl rfl).symm k) = lcol y k := funext fun a => Fin.ext (by
    match a with
    | ⟨0, _⟩ => exact (rhs_blk_0 _ _).trans hk
    | ⟨1, _⟩ => exact rhs_blk_1 _ _)
  rw [el, er]

/-- The bias row broadcast down the block, read at an index. -/
theorem blk_bias_apply (x2 : Vec Ideal S1x64 .f32) (y : S3072x64.Idx) :
    broadcastTo S3072x64 (shapeCast S1x64 x2 shapeCasts_S1x64_S1x64) broadcasts_S1x64_S3072x64 y = x2 (lbias y) := by
  rw [shapeCast_self]
  exact broadcastTo_apply x2 broadcasts_S1x64_S3072x64 y (lbias y) (fun a => match a with
    | ⟨0, _⟩ => by show 0 = if (1 : Nat) = 1 then 0 else _; rw [if_pos rfl]
    | ⟨1, _⟩ => by show (y 1).val = if (64 : Nat) = 1 then 0 else (y 1).val; rw [if_neg (by decide)])

/-- The payload at an index of its block. -/
theorem pay_apply (x0 : Vec Ideal S3072x64 .f32) (x1 : Vec Ideal S64x64 .f32) (x2 : Vec Ideal S1x64 .f32) (y : S3072x64.Idx) :
    k0_pay1 (F := Ideal) x0 x1 x2 y = max ((∑ k : Fin 64, x0 (lrow y k) * x1 (lcol y k)) + x2 (lbias y)) 0 := by
  unfold k0_pay1
  show max (matmul (F := Ideal) dot_S3072x64_S64x64_S3072x64_1_0_0_1_n_n none
        (truncf .bf16 (shapeCast S3072x64 x0 shapeCasts_S3072x64_S3072x64) bitsLt_bf16_f32) (truncf .bf16 x1 bitsLt_bf16_f32)
        (constant S3072x64 .f32 0x00000000#32) y
      + broadcastTo S3072x64 (shapeCast S1x64 x2 shapeCasts_S1x64_S1x64) broadcasts_S1x64_S3072x64 y)
      (Ideal.ofBits .f32 0x00000000#32) = _
  rw [blk_matmul_apply, blk_bias_apply, Ideal.ofBits_zero_f32, shapeCast_self]
  rfl

/-! ## From blocks to the array -/

section Array

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, as it finds them, at their literal types. -/
abbrev aRows (c : Dev nD) : (⟨S12288x64, .f32⟩ : BufTy).Contents (Elt Ideal) := V c main_v30
abbrev aWts (c : Dev nD) : (⟨S64x64, .f32⟩ : BufTy).Contents (Elt Ideal) := V c main_arg1
abbrev aBias (c : Dev nD) : (⟨S1x64, .f32⟩ : BufTy).Contents (Elt Ideal) := V c main_v31

/-- The printed index maps over the grid: the row blocks of the operand and of the result move together, every
    other block index is zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 3 :=
  (by decide +kernel : ∀ t : Fin grid0.N, _)

/-- Every row block is some point's. -/
theorem idx_onto : ∀ q0 : Fin 4, ∃ t : Fin cfg0.N, win0_3.index t = ![q0.val, 0] :=
  (by decide +kernel : ∀ q0 : Fin 4, ∃ t : Fin grid0.N, win0_3.index t = ![q0.val, 0])

/-- What point `t` writes back is block `t` of the dense layer of the arrays as the region finds them. -/
theorem flushed_eq (c : Dev nD) (t : Fin cfg0.N) :
    (Lin.dat V c).flushed 3 t
      = ((cfg0.win 3).blk t).view.read (Elt Ideal) (dense (V c main_v30) (V c main_arg1) (V c main_v31)) := by
  show (cfg0.win 3).cut (grid0.coords t) ((Lin.dat V c).after 3 t) = _
  rw [Lin.after_out]
  unfold Lin.outBlk
  rw [View.canon_unit_zero hz]
  simp only [View.ld_unit_zero (S := S3072x64) hz, View.ld_unit_zero (S := S64x64) hz, View.ld_unit_zero (S := S1x64) hz]
  obtain ⟨e0, e1, e2, e3, e4, e5, e6, e7⟩ := idx_facts t
  funext j
  refine (pay_apply (Lin.blk V c 0 t) (Lin.blk V c 1 t) (Lin.blk V c 2 t) j).trans ?_
  show max ((∑ k : Fin 64, aRows V c (((cfg0.win 0).blk t).view.emb (lrow j k)) * aWts V c (((cfg0.win 1).blk t).view.emb (lcol j k)))
      + aBias V c (((cfg0.win 2).blk t).view.emb (lbias j))) 0
    = max ((∑ k : Fin 64, aRows V c (rowK (((cfg0.win 3).blk t).view.emb j) k) * aWts V c (kCol (((cfg0.win 3).blk t).view.emb j) k))
      + aBias V c (biasAt (((cfg0.win 3).blk t).view.emb j))) 0
  have h0 : ∀ k : Fin 64, ((cfg0.win 0).blk t).view.emb (lrow j k) = rowK (((cfg0.win 3).blk t).view.emb j) k := fun k => by
    funext a; apply Fin.ext
    match a with
    | ⟨0, _⟩ => show win0_0.index t (0 : Fin 2) * 3072 + 1 * (j 0).val = win0_3.index t (0 : Fin 2) * 3072 + 1 * (j 0).val; omega
    | ⟨1, _⟩ => show win0_0.index t (1 : Fin 2) * 64 + 1 * k.val = k.val; omega
  have h1 : ∀ k : Fin 64, ((cfg0.win 1).blk t).view.emb (lcol j k) = kCol (((cfg0.win 3).blk t).view.emb j) k := fun k => by
    funext a; apply Fin.ext
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  have h2 : ((cfg0.win 2).blk t).view.emb (lbias j) = biasAt (((cfg0.win 3).blk t).view.emb j) := by
    funext a; apply Fin.ext
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega
  rw [h2]
  simp only [h0, h1]

/-- An index of the array is in point `t`'s block iff each coordinate is in the block's range on its axis. -/
theorem mem_blk (t : Fin cfg0.N) (i : S12288x64.Idx) :
    i ∈ ((cfg0.win 3).blk t).view.set ↔ ∀ a : Fin 2, win0_3.index t a * S3072x64.size a ≤ (i a).val ∧ (i a).val < win0_3.index t a * S3072x64.size a + S3072x64.size a := by
  show i ∈ ((View.whole main_v32).slice (win0_3.rect t)).set ↔ _
  rw [View.set_slice_whole, Rect.mem_set_unit]
  exact Iff.rfl

/-- The row blocks tile the array. -/
theorem cover (i : S12288x64.Idx) : ∃ t : Fin cfg0.N, (cfg0.win 3).flush t = true ∧ i ∈ ((cfg0.win 3).blk t).view.set := by
  have hi0 : (i 0).val < 12288 := (i 0).isLt
  have hi1 : (i 1).val < 64 := (i 1).isLt
  obtain ⟨t, ht⟩ := idx_onto ⟨(i 0).val / 3072, by omega⟩
  have q0 : win0_3.index t (0 : Fin 2) = (i 0).val / 3072 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 3072 ≤ (i 0).val ∧ (i 0).val < win0_3.index t (0 : Fin 2) * 3072 + 3072; omega
  | ⟨1, _⟩ => show win0_3.index t (1 : Fin 2) * 64 ≤ (i 1).val ∧ (i 1).val < win0_3.index t (1 : Fin 2) * 64 + 64; omega

/-- The activations array after the region: the dense layer of the arrays the region was entered with. -/
theorem final (c : Dev nD) :
    (Lin.dat V c).arrAt 3 cfg0.N = dense (V c main_v30) (V c main_arg1) (V c main_v31) :=
  (Lin.dat V c).arrAt_eq_of_cover 3 _ (fun t _ => flushed_eq V c t) (cover)

end Array

end Cert.KernelIdeal.LinValue

end
-- ==== Proof.KiGramValue.lean ====
/-
  The value the second kernel region leaves: the Gram matrix of the activations, on the whole array.

  Over the extended reals the body's payload at row `p`, column `q` of its tile is `Σ_k L[p,k] · R[q,k]`: the changes
  of float format are the identity, the transpose of the right block read at `(k, q)` is the block at `(q, k)`, the
  matrix product into a zero accumulator is the plain sum. Point `(i, j)` of the 8 × 8 grid reads row blocks `i` and
  `j` of the activations `X` and writes tile `(i, j)` of the result; the tiles tile the array, so the array ends at
  `X · Xᵀ`, index by index.
-/
import proofs.«121747_j39032662786657_1_alg».proof.Proof.KiGram
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GramValue

open Idealize.ShloMosaic Idealize.ShloMosaic.TcCoe
open Idealize.SL Idealize.SL.Sem
open Idealize.ShloMosaic.Pipeline (Dat Cfg Window)
open Cert.KernelIdeal Cert.KernelIdeal.Gen

/-! ## The specification -/

/-- Row `i 0` of the activations at contraction index `k`. -/
abbrev leftK (i : S12288x12288.Idx) (k : Fin 64) : S12288x64.Idx := fun a => match a with
  | ⟨0, _⟩ => ⟨(i 0).val, (i 0).isLt⟩
  | ⟨1, _⟩ => ⟨k.val, k.isLt⟩
/-- Row `i 1` of the activations at contraction index `k`. -/
abbrev rightK (i : S12288x12288.Idx) (k : Fin 64) : S12288x64.Idx := fun a => match a with
  | ⟨0, _⟩ => ⟨(i 1).val, (i 1).isLt⟩
  | ⟨1, _⟩ => ⟨k.val, k.isLt⟩

/-- The Gram matrix `X · Xᵀ`, index by index. -/
def gram (X : (⟨S12288x64, .f32⟩ : BufTy).Contents (Elt Ideal)) : (⟨S12288x12288, .f32⟩ : BufTy).Contents (Elt Ideal) := fun i =>
  ∑ k : Fin 64, X (leftK i k) * X (rightK i k)

/-! ## The payload at an index of the tile -/

abbrev tl (y : S1536x1536.Idx) (k : Fin 64) : S1536x64.Idx := fun a => match a with
  | ⟨0, _⟩ => ⟨(y 0).val, (y 0).isLt⟩
  | ⟨1, _⟩ => ⟨k.val, k.isLt⟩
abbrev tr (y : S1536x1536.Idx) (k : Fin 64) : S1536x64.Idx := fun a => match a with
  | ⟨0, _⟩ => ⟨(y 1).val, (y 1).isLt⟩
  | ⟨1, _⟩ => ⟨k.val, k.isLt⟩
abbrev trT (y : S1536x1536.Idx) (k : Fin 64) : S64x1536.Idx := fun a => match a with
  | ⟨0, _⟩ => ⟨k.val, k.isLt⟩
  | ⟨1, _⟩ => ⟨(y 1).val, (y 1).isLt⟩

theorem lhs_tile_0 (i : S1536x1536.Idx) (q : dot_S1536x64_S64x1536_S1536x1536_1_0_0_1_n_n.contr.Idx) :
    (dot_S1536x64_S64x1536_S1536x1536_1_0_0_1_n_n.lhsIdx i q 0).val = (i 0).val := by
  unfold DotDims.lhsIdx
  rw [dif_neg (show ¬(0 : Fin S1536x64.rank) ∈ dot_S1536x64_S64x1536_S1536x1536_1_0_0_1_n_n.lhsBatch by decide), dif_pos (show (0 : Fin S1536x64.rank) ∈ dot_S1536x64_S64x1536_S1536x1536_1_0_0_1_n_n.lhsNonContracting by decide)]
  rfl
theorem lhs_tile_1 (i : S1536x1536.Idx) (q : dot_S1536x64_S64x1536_S1536x1536_1_0_0_1_n_n.contr.Idx) :
    (dot_S1536x64_S64x1536_S1536x1536_1_0_0_1_n_n.lhsIdx i q 1).val = (q ⟨0, by decide⟩).val :=
  dot_S1536x64_S64x1536_S1536x1536_1_0_0_1_n_n.lhsIdx_val_of_single rfl i q
theorem rhs_tile_0 (i : S1536x1536.Idx) (q : dot_S1536x64_S64x1536_S1536x1536_1_0_0_1_n_n.contr.Idx) :
    (dot_S1536x64_S64x1536_S1536x1536_1_0_0_1_n_n.rhsIdx i q 0).val = (q ⟨0, by decide⟩).val :=
  dot_S1536x64_S64x1536_S1536x1536_1_0_0_1_n_n.rhsIdx_val_of_single rfl i q
theorem rhs_tile_1 (i : S1536x1536.Idx) (q : dot_S1536x64_S64x1536_S1536x1536_1_0_0_1_n_n.contr.Idx) :
    (dot_S1536x64_S64x1536_S1536x1536_1_0_0_1_n_n.rhsIdx i q 1).val = (i 1).val := by
  unfold DotDims.rhsIdx
  rw [dif_neg (show ¬(1 : Fin S64x1536.rank) ∈ dot_S1536x64_S64x1536_S1536x1536_1_0_0_1_n_n.rhsBatch by decide), dif_pos (show (1 : Fin S64x1536.rank) ∈ dot_S1536x64_S64x1536_S1536x1536_1_0_0_1_n_n.rhsNonContracting by decide)]
  rfl

/-- The tile product at an index: the sum over the contracted axis. -/
theorem tile_matmul_apply (l : FVec Ideal S1536x64 .bf16) (r : FVec Ideal S64x1536 .bf16) (y : S1536x1536.Idx) :
    matmul (F := Ideal) dot_S1536x64_S64x1536_S1536x1536_1_0_0_1_n_n none l r (constant S1536x1536 .f32 0x00000000#32) y
      = ∑ k : Fin 64, l (tl y k) * r (trT y k) := by
  simp only [matmul]
  rw [Ideal.matmul_constant_zero_apply, ← Equiv.sum_comp (ValueIdx.contrEquiv1 dot_S1536x64_S64x1536_S1536x1536_1_0_0_1_n_n 64 rfl rfl).symm]
  refine Finset.sum_congr rfl fun k _ => ?_
  have hk := ValueIdx.contrEquiv1_symm_val dot_S1536x64_S64x1536_S1536x1536_1_0_0_1_n_n 64 rfl rfl k
  have el : dot_S1536x64_S64x1536_S1536x1536_1_0_0_1_n_n.lhsIdx y ((ValueIdx.contrEquiv1 dot_S1536x64_S64x1536_S1536x1536_1_0_0_1_n_n 64 rfl rfl).symm k) = tl y k := funext fun a => Fin.ext (by
    match a with
    | ⟨0, _⟩ => exact lhs_tile_0 _ _
    | ⟨1, _⟩ => exact (lhs_tile_1 _ _).trans hk)
  have er : dot_S1536x64_S64x1536_S1536x1536_1_0_0_1_n_n.rhsIdx y ((ValueIdx.contrEquiv1 dot_S1536x64_S64x1536_S1536x1536_1_0_0_1_n_n 64 rfl rfl).symm k) = trT y k := funext fun a => Fin.ext (by
    match a with
    | ⟨0, _⟩ => exact (rhs_tile_0 _ _).trans hk
    | ⟨1, _⟩ => exact rhs_tile_1 _ _)
  rw [el, er]

/-- The transposed right block at `(k, q)` is the block at `(q, k)`. -/
theorem tile_transpose_apply (x : FVec Ideal S1536x64 .bf16) (y : S1536x1536.Idx) (k : Fin 64) :
    transpose S64x1536 [1, 0] x transposes_S1536x64_p1_0_S64x1536 (trT y k) = x (tr y k) :=
  transpose_apply [1, 0] x transposes_S1536x64_p1_0_S64x1536 (trT y k) (tr y k) (fun b => match b with
    | ⟨0, _⟩ => rfl
    | ⟨1, _⟩ => rfl)

/-- The payload at an index of its tile. -/
theorem pay_apply (x0 x1 : Vec Ideal S1536x64 .f32) (y : S1536x1536.Idx) :
    k1_pay1 (F := Ideal) x0 x1 y = ∑ k : Fin 64, x0 (tl y k) * x1 (tr y k) := by
  unfold k1_pay1
  show matmul (F := Ideal) dot_S1536x64_S64x1536_S1536x1536_1_0_0_1_n_n none
      (truncf .bf16 (shapeCast S1536x64 x0 shapeCasts_S1536x64_S1536x64) bitsLt_bf16_f32)
      (transpose S64x1536 [1, 0] (truncf .bf16 (shapeCast S1536x64 x1 shapeCasts_S1536x64_S1536x64) bitsLt_bf16_f32) transposes_S1536x64_p1_0_S64x1536)
      (constant S1536x1536 .f32 0x00000000#32) y = _
  rw [tile_matmul_apply]
  refine Finset.sum_congr rfl fun k _ => ?_
  rw [tile_transpose_apply, shapeCast_self, shapeCast_self]
  rfl

/-! ## From tiles to the array -/

section Array

variable (V : (c : Dev nD) → (b : Ref sig .tc) → Buf (Elt Ideal) ((c : Thread nD τ).loc b))

theorem hz : (![0, 0] : Fin 2 → Nat) = fun _ => 0 := funext fun a => by fin_cases a <;> rfl

/-- The activations as the region finds them, at their literal type. -/
abbrev aAct (c : Dev nD) : (⟨S12288x64, .f32⟩ : BufTy).Contents (Elt Ideal) := V c main_v32

/-- The printed index maps over the grid: the left window's row block is the tile's row index, the right window's
    row block is the tile's column index, every other block index is zero. -/
theorem idx_facts : ∀ t : Fin cfg1.N, win1_0.index t (0 : Fin 2) = win1_2.index t (0 : Fin 2)
    ∧ win1_0.index t (1 : Fin 2) = 0
    ∧ win1_1.index t (0 : Fin 2) = win1_2.index t (1 : Fin 2) ∧ win1_1.index t (1 : Fin 2) = 0
    ∧ win1_2.index t (0 : Fin 2) ≤ 7 ∧ win1_2.index t (1 : Fin 2) ≤ 7 :=
  (by decide +kernel : ∀ t : Fin grid1.N, _)

/-- Every tile is some point's. -/
theorem idx_onto : ∀ (q0 q1 : Fin 8), ∃ t : Fin cfg1.N, win1_2.index t = ![q0.val, q1.val] :=
  (by decide +kernel : ∀ (q0 q1 : Fin 8), ∃ t : Fin grid1.N, win1_2.index t = ![q0.val, q1.val])

/-- What point `t` writes back is tile `t` of the Gram matrix of the activations as the region finds them. -/
theorem flushed_eq (c : Dev nD) (t : Fin cfg1.N) :
    (Gram.dat V c).flushed 2 t = ((cfg1.win 2).blk t).view.read (Elt Ideal) (gram (V c main_v32)) := by
  show (cfg1.win 2).cut (grid1.coords t) ((Gram.dat V c).after 2 t) = _
  rw [Gram.after_out]
  unfold Gram.outTile
  rw [View.canon_unit_zero hz]
  simp only [View.ld_unit_zero (S := S1536x64) hz]
  obtain ⟨e0, e1, e2, e3, e4, e5⟩ := idx_facts t
  funext j
  refine (pay_apply (Gram.blk V c 0 t) (Gram.blk V c 1 t) j).trans ?_
  show (∑ k : Fin 64, aAct V c (((cfg1.win 0).blk t).view.emb (tl j k)) * aAct V c (((cfg1.win 1).blk t).view.emb (tr j k)))
    = ∑ k : Fin 64, aAct V c (leftK (((cfg1.win 2).blk t).view.emb j) k) * aAct V c (rightK (((cfg1.win 2).blk t).view.emb j) k)
  have h0 : ∀ k : Fin 64, ((cfg1.win 0).blk t).view.emb (tl j k) = leftK (((cfg1.win 2).blk t).view.emb j) k := fun k => by
    funext a; apply Fin.ext
    match a with
    | ⟨0, _⟩ => show win1_0.index t (0 : Fin 2) * 1536 + 1 * (j 0).val = win1_2.index t (0 : Fin 2) * 1536 + 1 * (j 0).val; omega
    | ⟨1, _⟩ => show win1_0.index t (1 : Fin 2) * 64 + 1 * k.val = k.val; omega
  have h1 : ∀ k : Fin 64, ((cfg1.win 1).blk t).view.emb (tr j k) = rightK (((cfg1.win 2).blk t).view.emb j) k := fun k => by
    funext a; apply Fin.ext
    match a with
    | ⟨0, _⟩ => show win1_1.index t (0 : Fin 2) * 1536 + 1 * (j 1).val = win1_2.index t (1 : Fin 2) * 1536 + 1 * (j 1).val; omega
    | ⟨1, _⟩ => show win1_1.index t (1 : Fin 2) * 64 + 1 * k.val = k.val; omega
  simp only [h0, h1]

/-- An index of the array is in point `t`'s tile iff each coordinate is in the tile's range on its axis. -/
theorem mem_blk (t : Fin cfg1.N) (i : S12288x12288.Idx) :
    i ∈ ((cfg1.win 2).blk t).view.set ↔ ∀ a : Fin 2, win1_2.index t a * S1536x1536.size a ≤ (i a).val ∧ (i a).val < win1_2.index t a * S1536x1536.size a + S1536x1536.size a := by
  show i ∈ ((View.whole main_v33).slice (win1_2.rect t)).set ↔ _
  rw [View.set_slice_whole, Rect.mem_set_unit]
  exact Iff.rfl

/-- The tiles tile the array. -/
theorem cover (i : S12288x12288.Idx) : ∃ t : Fin cfg1.N, (cfg1.win 2).flush t = true ∧ i ∈ ((cfg1.win 2).blk t).view.set := by
  have hi0 : (i 0).val < 12288 := (i 0).isLt
  have hi1 : (i 1).val < 12288 := (i 1).isLt
  obtain ⟨t, ht⟩ := idx_onto ⟨(i 0).val / 1536, by omega⟩ ⟨(i 1).val / 1536, by omega⟩
  have q0 : win1_2.index t (0 : Fin 2) = (i 0).val / 1536 := congrFun ht 0
  have q1 : win1_2.index t (1 : Fin 2) = (i 1).val / 1536 := congrFun ht 1
  refine ⟨t, flush1_2 t, ?_⟩
  rw [mem_blk]
  intro a
  match a with
  | ⟨0, _⟩ => show win1_2.index t (0 : Fin 2) * 1536 ≤ (i 0).val ∧ (i 0).val < win1_2.index t (0 : Fin 2) * 1536 + 1536; omega
  | ⟨1, _⟩ => show win1_2.index t (1 : Fin 2) * 1536 ≤ (i 1).val ∧ (i 1).val < win1_2.index t (1 : Fin 2) * 1536 + 1536; omega

/-- The result array after the region: the Gram matrix of the activations the region was entered with. -/
theorem final (c : Dev nD) : (Gram.dat V c).arrAt 2 cfg1.N = gram (V c main_v32) :=
  (Gram.dat V c).arrAt_eq_of_cover 2 _ (fun t _ => flushed_eq V c t) (cover)

end Array

end Cert.KernelIdeal.GramValue

end
-- ==== Proof.RefRun.lean ====
/-
  The reference's run and its stages read at an index: the generated modules, imported here so that the
  hand modules over them share one import.
-/
import proofs.«121747_j39032662786657_1_alg».proof.Proof.Gen.ReferenceIdeal.Run
import proofs.«121747_j39032662786657_1_alg».proof.Proof.Gen.ReferenceIdeal.Read
-- ==== Proof.Bridge.lean ====
/-
  The two idealized programs compute one function.

  Both apply the same host stretch to the arguments: the aggregated, degree-normalised features `A`. The kernel
  program then runs the dense layer and the Gram matrix as two kernel regions; the reference runs them as host
  operations. Over the extended reals each side's result is `gram (dense A W b)` at every index: the dense layer is
  `max (A · W + b) 0` and the Gram matrix `X · Xᵀ`, both as plain sums over the 64 contracted columns, so nothing but
  the re-spelling of indices joins the two sides (no law that needs finite inputs).
-/
import proofs.«121747_j39032662786657_1_alg».proof.Proof.KiRun
import proofs.«121747_j39032662786657_1_alg».proof.Proof.KiLinValue
import proofs.«121747_j39032662786657_1_alg».proof.Proof.KiGramValue
import proofs.«121747_j39032662786657_1_alg».proof.Proof.RefRun
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen
open Cert.ReferenceIdeal.Read (val_main_v30 val_main_v32 val_main_v35 val_main_v37)
open Cert.KernelIdeal.LinValue (dense)
open Cert.KernelIdeal.GramValue (gram)

/-! ## The reference's result is `gram (dense A W b)` -/

/-- The reference's activations at an index: the dense layer of the aggregated features. -/
theorem ref_dense (x0 : (⟨S12288x64, .f32⟩ : BufTy).Contents (Elt Ideal)) (x1 : (⟨S64x64, .f32⟩ : BufTy).Contents (Elt Ideal))
    (x2 : (⟨S64, .f32⟩ : BufTy).Contents (Elt Ideal)) (x3 x4 : (⟨S196608, .i32⟩ : BufTy).Contents (Elt Ideal)) (j : S12288x64.Idx) :
    val_main_v35 (F := Ideal) x0 x1 x2 x3 x4 j = dense (val_main_v30 (F := Ideal) x0 x3 x4) x1 (val_main_v32 (F := Ideal) x2) j := by
  rw [Cert.ReferenceIdeal.Read.val_main_v35_apply, Cert.ReferenceIdeal.Read.val_main_v34_apply, Cert.ReferenceIdeal.Read.val_main_v31_apply,
    Cert.ReferenceIdeal.Read.val_main_v33_apply, Cert.ReferenceIdeal.Read.val_main_call0_v0_apply, Cert.ReferenceIdeal.Read.val_main_call0_cst_apply]
  simp only [Ideal.maximumf_def, Ideal.addf_def, Ideal.ofBits_def, Ideal.ofBits_zero_f32]
  rfl

/-- The reference's result: the Gram matrix of those activations. -/
theorem ref_result (x0 : (⟨S12288x64, .f32⟩ : BufTy).Contents (Elt Ideal)) (x1 : (⟨S64x64, .f32⟩ : BufTy).Contents (Elt Ideal))
    (x2 : (⟨S64, .f32⟩ : BufTy).Contents (Elt Ideal)) (x3 x4 : (⟨S196608, .i32⟩ : BufTy).Contents (Elt Ideal)) :
    val_main_v37 (F := Ideal) x0 x1 x2 x3 x4 = gram (dense (val_main_v30 (F := Ideal) x0 x3 x4) x1 (val_main_v32 (F := Ideal) x2)) := by
  funext i
  rw [Cert.ReferenceIdeal.Read.val_main_v37_apply]
  unfold gram
  refine Finset.sum_congr rfl fun k _ => ?_
  rw [Cert.ReferenceIdeal.Read.val_main_v36_apply, ref_dense, ref_dense]
  have hr : Cert.ReferenceIdeal.Read.idx_main_v36 (Cert.ReferenceIdeal.Read.ridx_main_v37 i k) = Cert.KernelIdeal.GramValue.rightK i k :=
    funext fun a => Fin.ext (by
      match a with
      | ⟨0, _⟩ => rfl
      | ⟨1, _⟩ => rfl)
  rw [hr]
  rfl

/-! ## The kernel program's result is `gram (dense A W b)` -/

section Kernel

variable (m : (ℓ : Loc nD τ sig) → Buf (Elt Ideal) ℓ)

/-- The host stretch leaves the aggregated features where the first region's row window reads them. -/
theorem host_rows (c : Dev nD) :
    (Run.V1 m c main_v30 : (⟨S12288x64, .f32⟩ : BufTy).Contents (Elt Ideal))
      = val_main_v30 (F := Ideal) (m ((c.tc : Thread nD τ).loc main_arg0)) (m ((c.tc : Thread nD τ).loc main_arg3)) (m ((c.tc : Thread nD τ).loc main_arg4)) := by
  show StableHlo.after hostOps0 (Run.W0 m c) (Proc.devRef .tc main_v30) = _
  after_results_simp
  rfl

/-- It does not write the weights. -/
theorem host_weights (c : Dev nD) : Run.V1 m c main_arg1 = m ((c.tc : Thread nD τ).loc main_arg1) :=
  Gen.V1_of m c main_arg1 (by decide)

/-- It leaves the bias as one row: the reshape of a vector to a one-row matrix and the reference's broadcast of it
    along a new leading axis read the same element at every index. -/
theorem host_bias (c : Dev nD) :
    (Run.V1 m c main_v31 : (⟨S1x64, .f32⟩ : BufTy).Contents (Elt Ideal)) = val_main_v32 (F := Ideal) (m ((c.tc : Thread nD τ).loc main_arg2)) := by
  show StableHlo.after hostOps0 (Run.W0 m c) (Proc.devRef .tc main_v31) = _
  after_results_simp
  funext j
  rw [Cert.ReferenceIdeal.Read.val_main_v32_apply]
  show shapeCast S1x64 (m ((c.tc : Thread nD τ).loc main_arg2)) shapeCasts_S64_S1x64 j = _
  refine shapeCast_apply _ shapeCasts_S64_S1x64 j (Cert.ReferenceIdeal.Read.idx_main_v32 j) ?_
  rw [Shape.rowMajor_val_one, Shape.rowMajor_val_two]
  have h0 : (j 0).val < 1 := (j 0).isLt
  show (j 1).val = (j 0).val * 64 + (j 1).val
  omega

/-- The result array after the run. -/
theorem kernel_result (c : Dev nD) :
    Run.gramOut m c = gram (dense (val_main_v30 (F := Ideal) (m ((c.tc : Thread nD τ).loc main_arg0)) (m ((c.tc : Thread nD τ).loc main_arg3)) (m ((c.tc : Thread nD τ).loc main_arg4)))
      (m ((c.tc : Thread nD τ).loc main_arg1)) (val_main_v32 (F := Ideal) (m ((c.tc : Thread nD τ).loc main_arg2)))) := by
  unfold Run.gramOut
  refine (Cert.KernelIdeal.GramValue.final (Run.V2 m) c).trans ?_
  refine congrArg gram ?_
  refine (Run.W2_out m c).trans ?_
  unfold Run.linOut
  refine (Cert.KernelIdeal.LinValue.final (Run.V1 m) c).trans ?_
  rw [host_rows, host_weights, host_bias]

end Kernel

end Cert.Bridge

end
-- ==== Proof.lean ====
/-
  The certificate of a graph-convolution decoder: the kernel program against its reference.

  The program aggregates node features over the edges on the host (three scatter-adds, a gather, two
  degree normalisations), then runs two kernel regions: a dense layer with a rectifier, `X = max (A · W + b) 0`,
  over four row blocks, and the Gram matrix `X · Xᵀ` over an 8 × 8 grid of tiles. The reference runs the same host
  stretch and then the two products as host operations.

  The frames: the host stretch and the two regions run segment by segment (Proof/KiRun.lean, and its word-level
  twin Proof/KRun.lean); the second region reads the activations through two input windows on one array, held at two
  half shares. The reference's frame is its generated run. The ideal pass rewrote nothing, so `preserves` is trivial.
  The value claim: each region's final array is one whole-array function of what it read (Proof/KiLinValue.lean,
  Proof/KiGramValue.lean), the reference's result is the same composition (Proof/Bridge.lean), and the aggregated
  features are one function of the arguments on both sides.
-/
import proofs.«121747_j39032662786657_1_alg».proof.Defs
import proofs.«121747_j39032662786657_1_alg».proof.Proof.Gen.Kernel
import proofs.«121747_j39032662786657_1_alg».proof.Proof.Gen.KernelIdeal
import proofs.«121747_j39032662786657_1_alg».proof.Proof.Gen.ReferenceIdeal
import proofs.«121747_j39032662786657_1_alg».proof.Proof.Gen.Pre_finite_inputs
import proofs.«121747_j39032662786657_1_alg».proof.Proof.KRun
import proofs.«121747_j39032662786657_1_alg».proof.Proof.KiRun
import proofs.«121747_j39032662786657_1_alg».proof.Proof.Bridge
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ =>
  (θ_run Cert.Kernel.defs _ _).mono (fun _ h c => (h c).2) (Cert.Kernel.Run.run (F := Bits) m ρ)

/-- So does the idealized program. -/
theorem frame_ki : Cert.frame_KernelIdeal := fun m ρ _ =>
  (θ_run Cert.KernelIdeal.defs _ _).mono (fun _ h c => (h c).2) (Cert.KernelIdeal.Run.run (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the result array at the Gram matrix of
    the dense layer of the aggregated features. -/
theorem algebraic : Cert.algebraic_KernelIdeal_ReferenceIdeal := by
  intro m ρ m' ρ' _ hagree
  refine ⟨_, (θ_run Cert.KernelIdeal.defs _ _).mono (fun _ h c => ⟨(h c).1.trans (Cert.Bridge.kernel_result m c), (h c).2⟩)
    (Cert.KernelIdeal.Run.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.Bridge.ref_result, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
